-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v46)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v46) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v86) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8000000x4 : Shape := ⟨2, ![8000000, 4]⟩
abbrev S_ : Shape := ⟨0, ![]⟩

class Facts : Prop where
  bcast_S_S8000000x4 : S_.BroadcastsInDim S8000000x4 (![] : Fin 0 → Fin S8000000x4.rank)
  reducesTo_S8000000x4_S_d0_1 : S8000000x4.ReducesTo [0, 1] S_
  h_S_ : 0 < S_.numel

variable [Facts]

def fn {F : FTy → Type} [FloatOps F] (main_arg0 : FVec F S8000000x4 .f32) (main_arg1 : FVec F S8000000x4 .f32) : IVec S_ 1 :=
  let main_v0 : FVec F S8000000x4 .f32 := Host.absf main_arg0
  let main_cst : FVec F S_ .f32 := constant S_ .f32 0x7F800000#32
  let main_v1 : FVec F S8000000x4 .f32 := broadcastInDim S8000000x4 ![] bcast_S_S8000000x4 main_cst
  let main_v2 : IVec S8000000x4 1 := cmpf .olt main_v0 main_v1
  let main_c : IVec S_ 1 := constantI S_ 1 1#1
  let main_v3 : IVec S_ 1 := (fun x v => Host.reduce IntOp.andi x v reducesTo_S8000000x4_S_d0_1 h_S_) main_v2 main_c
  let main_v4 : FVec F S8000000x4 .f32 := Host.absf main_arg1
  let main_cst_0 : FVec F S_ .f32 := constant S_ .f32 0x7F800000#32
  let main_v5 : FVec F S8000000x4 .f32 := broadcastInDim S8000000x4 ![] bcast_S_S8000000x4 main_cst_0
  let main_v6 : IVec S8000000x4 1 := cmpf .olt main_v4 main_v5
  let main_c_1 : IVec S_ 1 := constantI S_ 1 1#1
  let main_v7 : IVec S_ 1 := (fun x v => Host.reduce IntOp.andi x v reducesTo_S8000000x4_S_d0_1 h_S_) main_v6 main_c_1
  let main_v8 : IVec S_ 1 := andi main_v3 main_v7
  main_v8
-- ==== Kernel.lean ====
abbrev S8000000x4 : Shape := ⟨2, ![8000000, 4]⟩
abbrev S8000000x1 : Shape := ⟨2, ![8000000, 1]⟩
abbrev S8000000 : Shape := ⟨1, ![8000000]⟩
abbrev S_ : Shape := ⟨0, ![]⟩
abbrev S257536 : Shape := ⟨1, ![257536]⟩
abbrev S8257536 : Shape := ⟨1, ![8257536]⟩
abbrev S64512x128 : Shape := ⟨2, ![64512, 128]⟩
abbrev S2x8x128 : Shape := ⟨3, ![2, 8, 128]⟩
abbrev S1536x128 : Shape := ⟨2, ![1536, 128]⟩
abbrev S1x8x128 : Shape := ⟨3, ![1, 8, 128]⟩
abbrev S1536 : Shape := ⟨1, ![1536]⟩
abbrev S1536x1 : Shape := ⟨2, ![1536, 1]⟩
abbrev S1 : Shape := ⟨1, ![1]⟩
abbrev S1x1 : Shape := ⟨2, ![1, 1]⟩
abbrev S1x1x1 : Shape := ⟨3, ![1, 1, 1]⟩

abbrev nBuf : Space → Nat
  | .hbm => 58
  | .vmem => 18
  | .smem => 0
  | _ => 0

abbrev bufTy : (tb : Table) → Fin (tcTables nBuf tb) → BufTy
  | .hbm, ⟨0, _⟩ => ⟨S8000000x4, .f32⟩
  | .hbm, ⟨1, _⟩ => ⟨S8000000x4, .f32⟩
  | .hbm, ⟨2, _⟩ => ⟨S8000000x1, .f32⟩
  | .hbm, ⟨3, _⟩ => ⟨S8000000, .f32⟩
  | .hbm, ⟨4, _⟩ => ⟨S_, .f32⟩
  | .hbm, ⟨5, _⟩ => ⟨S257536, .f32⟩
  | .hbm, ⟨6, _⟩ => ⟨S8257536, .f32⟩
  | .hbm, ⟨7, _⟩ => ⟨S64512x128, .f32⟩
  | .hbm, ⟨8, _⟩ => ⟨S8000000x1, .f32⟩
  | .hbm, ⟨9, _⟩ => ⟨S8000000, .f32⟩
  | .hbm, ⟨10, _⟩ => ⟨S_, .f32⟩
  | .hbm, ⟨11, _⟩ => ⟨S257536, .f32⟩
  | .hbm, ⟨12, _⟩ => ⟨S8257536, .f32⟩
  | .hbm, ⟨13, _⟩ => ⟨S64512x128, .f32⟩
  | .hbm, ⟨14, _⟩ => ⟨S8000000x1, .f32⟩
  | .hbm, ⟨15, _⟩ => ⟨S8000000, .f32⟩
  | .hbm, ⟨16, _⟩ => ⟨S_, .f32⟩
  | .hbm, ⟨17, _⟩ => ⟨S257536, .f32⟩
  | .hbm, ⟨18, _⟩ => ⟨S8257536, .f32⟩
  | .hbm, ⟨19, _⟩ => ⟨S64512x128, .f32⟩
  | .hbm, ⟨20, _⟩ => ⟨S8000000x1, .f32⟩
  | .hbm, ⟨21, _⟩ => ⟨S8000000, .f32⟩
  | .hbm, ⟨22, _⟩ => ⟨S_, .f32⟩
  | .hbm, ⟨23, _⟩ => ⟨S257536, .f32⟩
  | .hbm, ⟨24, _⟩ => ⟨S8257536, .f32⟩
  | .hbm, ⟨25, _⟩ => ⟨S64512x128, .f32⟩
  | .hbm, ⟨26, _⟩ => ⟨S8000000x1, .f32⟩
  | .hbm, ⟨27, _⟩ => ⟨S8000000, .f32⟩
  | .hbm, ⟨28, _⟩ => ⟨S_, .f32⟩
  | .hbm, ⟨29, _⟩ => ⟨S257536, .f32⟩
  | .hbm, ⟨30, _⟩ => ⟨S8257536, .f32⟩
  | .hbm, ⟨31, _⟩ => ⟨S64512x128, .f32⟩
  | .hbm, ⟨32, _⟩ => ⟨S8000000x1, .f32⟩
  | .hbm, ⟨33, _⟩ => ⟨S8000000, .f32⟩
  | .hbm, ⟨34, _⟩ => ⟨S_, .f32⟩
  | .hbm, ⟨35, _⟩ => ⟨S257536, .f32⟩
  | .hbm, ⟨36, _⟩ => ⟨S8257536, .f32⟩
  | .hbm, ⟨37, _⟩ => ⟨S64512x128, .f32⟩
  | .hbm, ⟨38, _⟩ => ⟨S8000000x1, .f32⟩
  | .hbm, ⟨39, _⟩ => ⟨S8000000, .f32⟩
  | .hbm, ⟨40, _⟩ => ⟨S_, .f32⟩
  | .hbm, ⟨41, _⟩ => ⟨S257536, .f32⟩
  | .hbm, ⟨42, _⟩ => ⟨S8257536, .f32⟩
  | .hbm, ⟨43, _⟩ => ⟨S64512x128, .f32⟩
  | .hbm, ⟨44, _⟩ => ⟨S8000000x1, .f32⟩
  | .hbm, ⟨45, _⟩ => ⟨S8000000, .f32⟩
  | .hbm, ⟨46, _⟩ => ⟨S_, .f32⟩
  | .hbm, ⟨47, _⟩ => ⟨S257536, .f32⟩
  | .hbm, ⟨48, _⟩ => ⟨S8257536, .f32⟩
  | .hbm, ⟨49, _⟩ => ⟨S64512x128, .f32⟩
  | .hbm, ⟨50, _⟩ => ⟨S2x8x128, .f32⟩
  | .hbm, ⟨51, _⟩ => ⟨S1x1x1, .f32⟩
  | .hbm, ⟨52, _⟩ => ⟨S_, .f32⟩
  | .hbm, ⟨53, _⟩ => ⟨S1x1x1, .f32⟩
  | .hbm, ⟨54, _⟩ => ⟨S_, .f32⟩
  | .hbm, ⟨55, _⟩ => ⟨S_, .f32⟩
  | .hbm, ⟨56, _⟩ => ⟨S_, .f32⟩
  | .hbm, ⟨57, _⟩ => ⟨S_, .f32⟩
  | .local _ .vmem, ⟨0, _⟩ => ⟨S1536x128, .f32⟩
  | .local _ .vmem, ⟨1, _⟩ => ⟨S1536x128, .f32⟩
  | .local _ .vmem, ⟨2, _⟩ => ⟨S1536x128, .f32⟩
  | .local _ .vmem, ⟨3, _⟩ => ⟨S1536x128, .f32⟩
  | .local _ .vmem, ⟨4, _⟩ => ⟨S1536x128, .f32⟩
  | .local _ .vmem, ⟨5, _⟩ => ⟨S1536x128, .f32⟩
  | .local _ .vmem, ⟨6, _⟩ => ⟨S1536x128, .f32⟩
  | .local _ .vmem, ⟨7, _⟩ => ⟨S1536x128, .f32⟩
  | .local _ .vmem, ⟨8, _⟩ => ⟨S1536x128, .f32⟩
  | .local _ .vmem, ⟨9, _⟩ => ⟨S1536x128, .f32⟩
  | .local _ .vmem, ⟨10, _⟩ => ⟨S1536x128, .f32⟩
  | .local _ .vmem, ⟨11, _⟩ => ⟨S1536x128, .f32⟩
  | .local _ .vmem, ⟨12, _⟩ => ⟨S1536x128, .f32⟩
  | .local _ .vmem, ⟨13, _⟩ => ⟨S1536x128, .f32⟩
  | .local _ .vmem, ⟨14, _⟩ => ⟨S1536x128, .f32⟩
  | .local _ .vmem, ⟨15, _⟩ => ⟨S1536x128, .f32⟩
  | .local _ .vmem, ⟨16, _⟩ => ⟨S1x8x128, .f32⟩
  | .local _ .vmem, ⟨17, _⟩ => ⟨S1x8x128, .f32⟩
  | _, _ => ⟨S8000000x4, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_cst_0 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_cst_1 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_cst_2 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_cst_3 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_cst_4 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_cst_5 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩
abbrev main_cst_6 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩
abbrev main_v42 : Ref sig .tc := ⟨.hbm, 52, rfl⟩
abbrev main_v43 : Ref sig .tc := ⟨.hbm, 53, rfl⟩
abbrev main_v44 : Ref sig .tc := ⟨.hbm, 54, rfl⟩
abbrev main_v45 : Ref sig .tc := ⟨.hbm, 55, rfl⟩
abbrev main_cst_7 : Ref sig .tc := ⟨.hbm, 56, rfl⟩
abbrev main_v46 : Ref sig .tc := ⟨.hbm, 57, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨2, ![2, 21], ![false, false]⟩

def cc0_transform_0 (i : grid0.Coords) : Fin 2 → Nat :=
  let arg0 : BitVec 32 := BitVec.ofNat 32 (i 0).val
  let arg1 : BitVec 32 := BitVec.ofNat 32 (i 1).val
  let c21_i32 : BitVec 32 := 21#32
  let v0 : BitVec 32 := Scalar.muli arg0 c21_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c21_i32 : BitVec 32 := 21#32
  let v0 : BitVec 32 := Scalar.muli arg0 c21_i32
  let v1 : BitVec 32 := Scalar.addi v0 arg1
  let c0_i32 : BitVec 32 := 0#32
  let c0_i32_0 : BitVec 32 := 0#32
  ![v1.toNat, c0_i32.toNat]

def cc0_transform_2 (i : grid0.Coords) : Fin 2 → Nat :=
  let arg0 : BitVec 32 := BitVec.ofNat 32 (i 0).val
  let arg1 : BitVec 32 := BitVec.ofNat 32 (i 1).val
  let c21_i32 : BitVec 32 := 21#32
  let v0 : BitVec 32 := Scalar.muli arg0 c21_i32
  let v1 : BitVec 32 := Scalar.addi v0 arg1
  let c0_i32 : BitVec 32 := 0#32
  let c0_i32_0 : BitVec 32 := 0#32
  ![v1.toNat, c0_i32.toNat]

def cc0_transform_3 (i : grid0.Coords) : Fin 2 → Nat :=
  let arg0 : BitVec 32 := BitVec.ofNat 32 (i 0).val
  let arg1 : BitVec 32 := BitVec.ofNat 32 (i 1).val
  let c21_i32 : BitVec 32 := 21#32
  let v0 : BitVec 32 := Scalar.muli arg0 c21_i32
  let v1 : BitVec 32 := Scalar.addi v0 arg1
  let c0_i32 : BitVec 32 := 0#32
  let c0_i32_0 : BitVec 32 := 0#32
  ![v1.toNat, c0_i32.toNat]

def cc0_transform_4 (i : grid0.Coords) : Fin 2 → Nat :=
  let arg0 : BitVec 32 := BitVec.ofNat 32 (i 0).val
  let arg1 : BitVec 32 := BitVec.ofNat 32 (i 1).val
  let c21_i32 : BitVec 32 := 21#32
  let v0 : BitVec 32 := Scalar.muli arg0 c21_i32
  let v1 : BitVec 32 := Scalar.addi v0 arg1
  let c0_i32 : BitVec 32 := 0#32
  let c0_i32_0 : BitVec 32 := 0#32
  ![v1.toNat, c0_i32.toNat]

def cc0_transform_5 (i : grid0.Coords) : Fin 2 → Nat :=
  let arg0 : BitVec 32 := BitVec.ofNat 32 (i 0).val
  let arg1 : BitVec 32 := BitVec.ofNat 32 (i 1).val
  let c21_i32 : BitVec 32 := 21#32
  let v0 : BitVec 32 := Scalar.muli arg0 c21_i32
  let v1 : BitVec 32 := Scalar.addi v0 arg1
  let c0_i32 : BitVec 32 := 0#32
  let c0_i32_0 : BitVec 32 := 0#32
  ![v1.toNat, c0_i32.toNat]

def cc0_transform_6 (i : grid0.Coords) : Fin 2 → Nat :=
  let arg0 : BitVec 32 := BitVec.ofNat 32 (i 0).val
  let arg1 : BitVec 32 := BitVec.ofNat 32 (i 1).val
  let c21_i32 : BitVec 32 := 21#32
  let v0 : BitVec 32 := Scalar.muli arg0 c21_i32
  let v1 : BitVec 32 := Scalar.addi v0 arg1
  let c0_i32 : BitVec 32 := 0#32
  let c0_i32_0 : BitVec 32 := 0#32
  ![v1.toNat, c0_i32.toNat]

def cc0_transform_7 (i : grid0.Coords) : Fin 2 → Nat :=
  let arg0 : BitVec 32 := BitVec.ofNat 32 (i 0).val
  let arg1 : BitVec 32 := BitVec.ofNat 32 (i 1).val
  let c21_i32 : BitVec 32 := 21#32
  let v0 : BitVec 32 := Scalar.muli arg0 c21_i32
  let v1 : BitVec 32 := Scalar.addi v0 arg1
  let c0_i32 : BitVec 32 := 0#32
  let c0_i32_0 : BitVec 32 := 0#32
  ![v1.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1536x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1536x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1536x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1536x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1536x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1536x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1536x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1536x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x8x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]

class Facts₀ : Prop where
  slices_S8000000x4_S8000000x1_0_0 : S8000000x4.Slices ![0, 0] S8000000x1
  shapeCasts_S8000000x1_S8000000 : S8000000x1.ShapeCasts S8000000
  bcast_S_S257536 : S_.BroadcastsInDim S257536 (![] : Fin 0 → Fin S257536.rank)
  concatenates_S8000000_S257536_S8257536_d0 : Shape.Concatenates [S8000000, S257536] S8257536 0
  shapeCasts_S8257536_S64512x128 : S8257536.ShapeCasts S64512x128
  slices_S8000000x4_S8000000x1_0_1 : S8000000x4.Slices ![0, 1] S8000000x1
  slices_S8000000x4_S8000000x1_0_2 : S8000000x4.Slices ![0, 2] S8000000x1
  slices_S8000000x4_S8000000x1_0_3 : S8000000x4.Slices ![0, 3] S8000000x1
  inb_S1x8x128_S1x8x128_0_0_0 : ∀ a, (![0, 0, 0] : Fin 3 → Nat) a + S1x8x128.size a ≤ S1x8x128.size a
  h_S1x8x128 : 0 < S1x8x128.numel
  inb_S1536x128_S1536x128_0_0 : ∀ a, (![0, 0] : Fin 2 → Nat) a + S1536x128.size a ≤ S1536x128.size a
  h_S1536x128 : 0 < S1536x128.numel
  shapeCasts_S1536x128_S1536x128 : S1536x128.ShapeCasts S1536x128
  reduces_S1536x128_S1536 : S1536x128.Reduces [1] S1536
  shapeCasts_S1536_S1536x1 : S1536.ShapeCasts S1536x1
  reduces_S1536x1_S1 : S1536x1.Reduces [0] S1
  shapeCasts_S1_S1x1 : S1.ShapeCasts S1x1
  inb_S1x8x128_S1x1x1_0_0_0 : ∀ a, (![0, 0, 0] : Fin 3 → Nat) a + S1x1x1.size a ≤ S1x8x128.size a
  h_S1x1x1 : 0 < S1x1x1.numel
  shapeCasts_S1x1x1_S1x1 : S1x1x1.ShapeCasts S1x1
  shapeCasts_S1x1_S1x1x1 : S1x1.ShapeCasts S1x1x1
  slices_S2x8x128_S1x1x1_0_0_0 : S2x8x128.Slices ![0, 0, 0] S1x1x1
  shapeCasts_S1x1x1_S_ : S1x1x1.ShapeCasts S_
  slices_S2x8x128_S1x1x1_1_0_0 : S2x8x128.Slices ![1, 0, 0] S1x1x1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1536x128.size a ≤ S64512x128.size a
  hwx0_0 : ∀ i : grid0.Coords, EltTy.bits .f32 = 32 ∨ (Rect.block (s := S64512x128) S1536x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1536x128.size a ≤ S64512x128.size a
  hwx0_1 : ∀ i : grid0.Coords, EltTy.bits .f32 = 32 ∨ (Rect.block (s := S64512x128) S1536x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1536x128.size a ≤ S64512x128.size a
  hwx0_2 : ∀ i : grid0.Coords, EltTy.bits .f32 = 32 ∨ (Rect.block (s := S64512x128) S1536x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1536x128.size a ≤ S64512x128.size a
  hwx0_3 : ∀ i : grid0.Coords, EltTy.bits .f32 = 32 ∨ (Rect.block (s := S64512x128) S1536x128.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1536x128.size a ≤ S64512x128.size a
  hwx0_4 : ∀ i : grid0.Coords, EltTy.bits .f32 = 32 ∨ (Rect.block (s := S64512x128) S1536x128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1536x128.size a ≤ S64512x128.size a
  hwx0_5 : ∀ i : grid0.Coords, EltTy.bits .f32 = 32 ∨ (Rect.block (s := S64512x128) S1536x128.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S1536x128.size a ≤ S64512x128.size a
  hwx0_6 : ∀ i : grid0.Coords, EltTy.bits .f32 = 32 ∨ (Rect.block (s := S64512x128) S1536x128.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S1536x128.size a ≤ S64512x128.size a
  hwx0_7 : ∀ i : grid0.Coords, EltTy.bits .f32 = 32 ∨ (Rect.block (s := S64512x128) S1536x128.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S1x8x128.size a ≤ S2x8x128.size a
  hwx0_8 : ∀ i : grid0.Coords, EltTy.bits .f32 = 32 ∨ (Rect.block (s := S2x8x128) S1x8x128.size (cc0_transform_8 i) (hinb0_8 i)).WholeWords (EltTy.packing .f32)

variable [Facts₀]

abbrev win0_0 : Pipeline.Window sig grid0 :=
  Pipeline.Window.ofSpec (Memref.whole main_v4) S1536x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v9) S1536x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v14) S1536x128.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v19) S1536x128.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v24) S1536x128.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v29) S1536x128.size cc0_transform_5 reads0_5 false false 2 stage0_5 sem0_5
    hrank0 hreads0_5 hinb0_5 nbuf0_5 (Memref.isWhole_whole _) hwx0_5 hstage0_5

abbrev win0_6 : Pipeline.Window sig grid0 :=
  Pipeline.Window.ofSpec (Memref.whole main_v34) S1536x128.size cc0_transform_6 reads0_6 false false 2 stage0_6 sem0_6
    hrank0 hreads0_6 hinb0_6 nbuf0_6 (Memref.isWhole_whole _) hwx0_6 hstage0_6

abbrev win0_7 : Pipeline.Window sig grid0 :=
  Pipeline.Window.ofSpec (Memref.whole main_v39) S1536x128.size cc0_transform_7 reads0_7 false false 2 stage0_7 sem0_7
    hrank0 hreads0_7 hinb0_7 nbuf0_7 (Memref.isWhole_whole _) hwx0_7 hstage0_7

abbrev win0_8 : Pipeline.Window sig grid0 :=
  Pipeline.Window.ofSpec (Memref.whole main_v40) S1x8x128.size cc0_transform_8 reads0_8 true false 2 stage0_8 sem0_8
    hrank0 hreads0_8 hinb0_8 nbuf0_8 (Memref.isWhole_whole _) hwx0_8 hstage0_8

abbrev win0 : Fin 9 → Pipeline.Window sig grid0 := fun | 0 => win0_0 | 1 => win0_1 | 2 => win0_2 | 3 => win0_3 | 4 => win0_4 | 5 => win0_5 | 6 => win0_6 | 7 => win0_7 | 8 => win0_8 | ⟨_ + 9, h⟩ => absurd h (Nat.not_lt.2 (Nat.le_add_left _ _))
abbrev spec0 : Fin 9 → Pipeline.WinSpec sig grid0.rank := fun w => (win0 w).toWinSpec

class Facts : Prop extends Facts₀ where

variable [Facts]
-- ==== ReferenceIdeal.lean ====
abbrev S8000000x4 : Shape := ⟨2, ![8000000, 4]⟩
abbrev S8000000x1 : Shape := ⟨2, ![8000000, 1]⟩
abbrev S8000000 : Shape := ⟨1, ![8000000]⟩
abbrev S_ : Shape := ⟨0, ![]⟩
abbrev S8000000x2 : Shape := ⟨2, ![8000000, 2]⟩

abbrev nBuf : Space → Nat
  | .hbm => 109
  | .vmem => 0
  | .smem => 0
  | _ => 0

abbrev bufTy : (tb : Table) → Fin (tcTables nBuf tb) → BufTy
  | .hbm, ⟨0, _⟩ => ⟨S8000000x4, .f32⟩
  | .hbm, ⟨1, _⟩ => ⟨S8000000x4, .f32⟩
  | .hbm, ⟨2, _⟩ => ⟨S8000000x1, .f32⟩
  | .hbm, ⟨3, _⟩ => ⟨S8000000, .f32⟩
  | .hbm, ⟨4, _⟩ => ⟨S8000000x1, .f32⟩
  | .hbm, ⟨5, _⟩ => ⟨S8000000, .f32⟩
  | .hbm, ⟨6, _⟩ => ⟨S8000000, .i1⟩
  | .hbm, ⟨7, _⟩ => ⟨S8000000x1, .f32⟩
  | .hbm, ⟨8, _⟩ => ⟨S8000000, .f32⟩
  | .hbm, ⟨9, _⟩ => ⟨S8000000x1, .f32⟩
  | .hbm, ⟨10, _⟩ => ⟨S8000000, .f32⟩
  | .hbm, ⟨11, _⟩ => ⟨S8000000, .i1⟩
  | .hbm, ⟨12, _⟩ => ⟨S8000000, .i1⟩
  | .hbm, ⟨13, _⟩ => ⟨S8000000x1, .i1⟩
  | .hbm, ⟨14, _⟩ => ⟨S_, .f32⟩
  | .hbm, ⟨15, _⟩ => ⟨S_, .f32⟩
  | .hbm, ⟨16, _⟩ => ⟨S8000000x4, .f32⟩
  | .hbm, ⟨17, _⟩ => ⟨S8000000x4, .f32⟩
  | .hbm, ⟨18, _⟩ => ⟨S8000000x4, .i1⟩
  | .hbm, ⟨19, _⟩ => ⟨S8000000x4, .f32⟩
  | .hbm, ⟨20, _⟩ => ⟨S8000000x1, .f32⟩
  | .hbm, ⟨21, _⟩ => ⟨S8000000, .f32⟩
  | .hbm, ⟨22, _⟩ => ⟨S8000000x1, .f32⟩
  | .hbm, ⟨23, _⟩ => ⟨S8000000, .f32⟩
  | .hbm, ⟨24, _⟩ => ⟨S8000000, .i1⟩
  | .hbm, ⟨25, _⟩ => ⟨S8000000x1, .f32⟩
  | .hbm, ⟨26, _⟩ => ⟨S8000000, .f32⟩
  | .hbm, ⟨27, _⟩ => ⟨S8000000x1, .f32⟩
  | .hbm, ⟨28, _⟩ => ⟨S8000000, .f32⟩
  | .hbm, ⟨29, _⟩ => ⟨S8000000, .i1⟩
  | .hbm, ⟨30, _⟩ => ⟨S8000000, .i1⟩
  | .hbm, ⟨31, _⟩ => ⟨S8000000x1, .i1⟩
  | .hbm, ⟨32, _⟩ => ⟨S_, .f32⟩
  | .hbm, ⟨33, _⟩ => ⟨S_, .f32⟩
  | .hbm, ⟨34, _⟩ => ⟨S8000000x4, .f32⟩
  | .hbm, ⟨35, _⟩ => ⟨S8000000x4, .f32⟩
  | .hbm, ⟨36, _⟩ => ⟨S8000000x4, .i1⟩
  | .hbm, ⟨37, _⟩ => ⟨S8000000x4, .f32⟩
  | .hbm, ⟨38, _⟩ => ⟨S8000000x1, .f32⟩
  | .hbm, ⟨39, _⟩ => ⟨S8000000, .f32⟩
  | .hbm, ⟨40, _⟩ => ⟨S8000000x1, .f32⟩
  | .hbm, ⟨41, _⟩ => ⟨S8000000, .f32⟩
  | .hbm, ⟨42, _⟩ => ⟨S8000000, .f32⟩
  | .hbm, ⟨43, _⟩ => ⟨S8000000x1, .f32⟩
  | .hbm, ⟨44, _⟩ => ⟨S8000000, .f32⟩
  | .hbm, ⟨45, _⟩ => ⟨S8000000x1, .f32⟩
  | .hbm, ⟨46, _⟩ => ⟨S8000000, .f32⟩
  | .hbm, ⟨47, _⟩ => ⟨S8000000, .f32⟩
  | .hbm, ⟨48, _⟩ => ⟨S8000000, .f32⟩
  | .hbm, ⟨49, _⟩ => ⟨S8000000x1, .f32⟩
  | .hbm, ⟨50, _⟩ => ⟨S8000000, .f32⟩
  | .hbm, ⟨51, _⟩ => ⟨S8000000x1, .f32⟩
  | .hbm, ⟨52, _⟩ => ⟨S8000000, .f32⟩
  | .hbm, ⟨53, _⟩ => ⟨S8000000, .f32⟩
  | .hbm, ⟨54, _⟩ => ⟨S8000000x1, .f32⟩
  | .hbm, ⟨55, _⟩ => ⟨S8000000, .f32⟩
  | .hbm, ⟨56, _⟩ => ⟨S8000000x1, .f32⟩
  | .hbm, ⟨57, _⟩ => ⟨S8000000, .f32⟩
  | .hbm, ⟨58, _⟩ => ⟨S8000000, .f32⟩
  | .hbm, ⟨59, _⟩ => ⟨S8000000, .f32⟩
  | .hbm, ⟨60, _⟩ => ⟨S8000000x2, .f32⟩
  | .hbm, ⟨61, _⟩ => ⟨S8000000x2, .f32⟩
  | .hbm, ⟨62, _⟩ => ⟨S8000000x2, .f32⟩
  | .hbm, ⟨63, _⟩ => ⟨S8000000x2, .f32⟩
  | .hbm, ⟨64, _⟩ => ⟨S8000000x2, .f32⟩
  | .hbm, ⟨65, _⟩ => ⟨S8000000x2, .f32⟩
  | .hbm, ⟨66, _⟩ => ⟨S8000000x2, .f32⟩
  | .hbm, ⟨67, _⟩ => ⟨S_, .f32⟩
  | .hbm, ⟨68, _⟩ => ⟨S_, .f32⟩
  | .hbm, ⟨69, _⟩ => ⟨S8000000x2, .f32⟩
  | .hbm, ⟨70, _⟩ => ⟨S8000000x2, .f32⟩
  | .hbm, ⟨71, _⟩ => ⟨S8000000x1, .f32⟩
  | .hbm, ⟨72, _⟩ => ⟨S8000000, .f32⟩
  | .hbm, ⟨73, _⟩ => ⟨S8000000x1, .f32⟩
  | .hbm, ⟨74, _⟩ => ⟨S8000000, .f32⟩
  | .hbm, ⟨75, _⟩ => ⟨S8000000, .f32⟩
  | .hbm, ⟨76, _⟩ => ⟨S8000000, .f32⟩
  | .hbm, ⟨77, _⟩ => ⟨S8000000, .f32⟩
  | .hbm, ⟨78, _⟩ => ⟨S8000000, .f32⟩
  | .hbm, ⟨79, _⟩ => ⟨S8000000x2, .f32⟩
  | .hbm, ⟨80, _⟩ => ⟨S8000000x2, .f32⟩
  | .hbm, ⟨81, _⟩ => ⟨S8000000x2, .f32⟩
  | .hbm, ⟨82, _⟩ => ⟨S8000000x2, .f32⟩
  | .hbm, ⟨83, _⟩ => ⟨S8000000x2, .f32⟩
  | .hbm, ⟨84, _⟩ => ⟨S8000000x2, .f32⟩
  | .hbm, ⟨85, _⟩ => ⟨S8000000x2, .f32⟩
  | .hbm, ⟨86, _⟩ => ⟨S_, .f32⟩
  | .hbm, ⟨87, _⟩ => ⟨S_, .f32⟩
  | .hbm, ⟨88, _⟩ => ⟨S8000000x2, .f32⟩
  | .hbm, ⟨89, _⟩ => ⟨S8000000x2, .f32⟩
  | .hbm, ⟨90, _⟩ => ⟨S8000000x1, .f32⟩
  | .hbm, ⟨91, _⟩ => ⟨S8000000, .f32⟩
  | .hbm, ⟨92, _⟩ => ⟨S8000000x1, .f32⟩
  | .hbm, ⟨93, _⟩ => ⟨S8000000, .f32⟩
  | .hbm, ⟨94, _⟩ => ⟨S8000000, .f32⟩
  | .hbm, ⟨95, _⟩ => ⟨S8000000, .f32⟩
  | .hbm, ⟨96, _⟩ => ⟨S8000000, .f32⟩
  | .hbm, ⟨97, _⟩ => ⟨S8000000, .f32⟩
  | .hbm, ⟨98, _⟩ => ⟨S_, .f32⟩
  | .hbm, ⟨99, _⟩ => ⟨S8000000, .f32⟩
  | .hbm, ⟨100, _⟩ => ⟨S8000000, .f32⟩
  | .hbm, ⟨101, _⟩ => ⟨S_, .f32⟩
  | .hbm, ⟨102, _⟩ => ⟨S_, .f32⟩
  | .hbm, ⟨103, _⟩ => ⟨S8000000, .f32⟩
  | .hbm, ⟨104, _⟩ => ⟨S8000000, .f32⟩
  | .hbm, ⟨105, _⟩ => ⟨S_, .f32⟩
  | .hbm, ⟨106, _⟩ => ⟨S_, .f32⟩
  | .hbm, ⟨107, _⟩ => ⟨S_, .f32⟩
  | .hbm, ⟨108, _⟩ => ⟨S_, .f32⟩
  | _, _ => ⟨S8000000x4, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_cst : Ref sig .tc := ⟨.hbm, 14, rfl⟩
abbrev main_call0_v0 : Ref sig .tc := ⟨.hbm, 15, rfl⟩
abbrev main_call0_v1 : Ref sig .tc := ⟨.hbm, 16, rfl⟩
abbrev main_v12 : Ref sig .tc := ⟨.hbm, 17, rfl⟩
abbrev main_call1_v0 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_cst_0 : Ref sig .tc := ⟨.hbm, 32, rfl⟩
abbrev main_call2_v0 : Ref sig .tc := ⟨.hbm, 33, rfl⟩
abbrev main_call2_v1 : Ref sig .tc := ⟨.hbm, 34, rfl⟩
abbrev main_v26 : Ref sig .tc := ⟨.hbm, 35, rfl⟩
abbrev main_call3_v0 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩
abbrev main_v42 : Ref sig .tc := ⟨.hbm, 52, rfl⟩
abbrev main_v43 : Ref sig .tc := ⟨.hbm, 53, rfl⟩
abbrev main_v44 : Ref sig .tc := ⟨.hbm, 54, rfl⟩
abbrev main_v45 : Ref sig .tc := ⟨.hbm, 55, rfl⟩
abbrev main_v46 : Ref sig .tc := ⟨.hbm, 56, rfl⟩
abbrev main_v47 : Ref sig .tc := ⟨.hbm, 57, rfl⟩
abbrev main_v48 : Ref sig .tc := ⟨.hbm, 58, rfl⟩
abbrev main_v49 : Ref sig .tc := ⟨.hbm, 59, rfl⟩
abbrev main_v50 : Ref sig .tc := ⟨.hbm, 60, rfl⟩
abbrev main_v51 : Ref sig .tc := ⟨.hbm, 61, rfl⟩
abbrev main_v52 : Ref sig .tc := ⟨.hbm, 62, rfl⟩
abbrev main_v53 : Ref sig .tc := ⟨.hbm, 63, rfl⟩
abbrev main_v54 : Ref sig .tc := ⟨.hbm, 64, rfl⟩
abbrev main_v55 : Ref sig .tc := ⟨.hbm, 65, rfl⟩
abbrev main_v56 : Ref sig .tc := ⟨.hbm, 66, rfl⟩
abbrev main_cst_1 : Ref sig .tc := ⟨.hbm, 67, rfl⟩
abbrev main_call4_v0 : Ref sig .tc := ⟨.hbm, 68, rfl⟩
abbrev main_call4_v1 : Ref sig .tc := ⟨.hbm, 69, rfl⟩
abbrev main_v57 : Ref sig .tc := ⟨.hbm, 70, rfl⟩
abbrev main_v58 : Ref sig .tc := ⟨.hbm, 71, rfl⟩
abbrev main_v59 : Ref sig .tc := ⟨.hbm, 72, rfl⟩
abbrev main_v60 : Ref sig .tc := ⟨.hbm, 73, rfl⟩
abbrev main_v61 : Ref sig .tc := ⟨.hbm, 74, rfl⟩
abbrev main_v62 : Ref sig .tc := ⟨.hbm, 75, rfl⟩
abbrev main_v63 : Ref sig .tc := ⟨.hbm, 76, rfl⟩
abbrev main_v64 : Ref sig .tc := ⟨.hbm, 77, rfl⟩
abbrev main_v65 : Ref sig .tc := ⟨.hbm, 78, rfl⟩
abbrev main_v66 : Ref sig .tc := ⟨.hbm, 79, rfl⟩
abbrev main_v67 : Ref sig .tc := ⟨.hbm, 80, rfl⟩
abbrev main_v68 : Ref sig .tc := ⟨.hbm, 81, rfl⟩
abbrev main_v69 : Ref sig .tc := ⟨.hbm, 82, rfl⟩
abbrev main_v70 : Ref sig .tc := ⟨.hbm, 83, rfl⟩
abbrev main_v71 : Ref sig .tc := ⟨.hbm, 84, rfl⟩
abbrev main_v72 : Ref sig .tc := ⟨.hbm, 85, rfl⟩
abbrev main_cst_2 : Ref sig .tc := ⟨.hbm, 86, rfl⟩
abbrev main_call5_v0 : Ref sig .tc := ⟨.hbm, 87, rfl⟩
abbrev main_call5_v1 : Ref sig .tc := ⟨.hbm, 88, rfl⟩
abbrev main_v73 : Ref sig .tc := ⟨.hbm, 89, rfl⟩
abbrev main_v74 : Ref sig .tc := ⟨.hbm, 90, rfl⟩
abbrev main_v75 : Ref sig .tc := ⟨.hbm, 91, rfl⟩
abbrev main_v76 : Ref sig .tc := ⟨.hbm, 92, rfl⟩
abbrev main_v77 : Ref sig .tc := ⟨.hbm, 93, rfl⟩
abbrev main_v78 : Ref sig .tc := ⟨.hbm, 94, rfl⟩
abbrev main_v79 : Ref sig .tc := ⟨.hbm, 95, rfl⟩
abbrev main_v80 : Ref sig .tc := ⟨.hbm, 96, rfl⟩
abbrev main_v81 : Ref sig .tc := ⟨.hbm, 97, rfl⟩
abbrev main_cst_3 : Ref sig .tc := ⟨.hbm, 98, rfl⟩
abbrev main_v82 : Ref sig .tc := ⟨.hbm, 99, rfl⟩
abbrev main_v83 : Ref sig .tc := ⟨.hbm, 100, rfl⟩
abbrev main_cst_4 : Ref sig .tc := ⟨.hbm, 101, rfl⟩
abbrev main_call6_v0 : Ref sig .tc := ⟨.hbm, 102, rfl⟩
abbrev main_call6_v1 : Ref sig .tc := ⟨.hbm, 103, rfl⟩
abbrev main_v84 : Ref sig .tc := ⟨.hbm, 104, rfl⟩
abbrev main_cst_5 : Ref sig .tc := ⟨.hbm, 105, rfl⟩
abbrev main_v85 : Ref sig .tc := ⟨.hbm, 106, rfl⟩
abbrev main_cst_6 : Ref sig .tc := ⟨.hbm, 107, rfl⟩
abbrev main_v86 : Ref sig .tc := ⟨.hbm, 108, rfl⟩

abbrev nD : Nat := 1
abbrev τ : Topo := Topo.v7x

variable {F : FTy → Type} [FloatOps F]

class Facts₀ : Prop where
  slices_S8000000x4_S8000000x1_0_0 : S8000000x4.Slices ![0, 0] S8000000x1
  shapeCasts_S8000000x1_S8000000 : S8000000x1.ShapeCasts S8000000
  slices_S8000000x4_S8000000x1_0_2 : S8000000x4.Slices ![0, 2] S8000000x1
  slices_S8000000x4_S8000000x1_0_1 : S8000000x4.Slices ![0, 1] S8000000x1
  slices_S8000000x4_S8000000x1_0_3 : S8000000x4.Slices ![0, 3] S8000000x1
  bcast_S8000000_S8000000x1_0 : S8000000.BroadcastsInDim S8000000x1 (![0] : Fin 1 → Fin S8000000x1.rank)
  bcast_S_S8000000x4 : S_.BroadcastsInDim S8000000x4 (![] : Fin 0 → Fin S8000000x4.rank)
  bcast_S8000000x1_S8000000x4_0_1 : S8000000x1.BroadcastsInDim S8000000x4 (![0, 1] : Fin 2 → Fin S8000000x4.rank)
  slices_S8000000x4_S8000000x2_0_0 : S8000000x4.Slices ![0, 0] S8000000x2
  slices_S8000000x4_S8000000x2_0_2 : S8000000x4.Slices ![0, 2] S8000000x2
  bcast_S_S8000000x2 : S_.BroadcastsInDim S8000000x2 (![] : Fin 0 → Fin S8000000x2.rank)
  slices_S8000000x2_S8000000x1_0_0 : S8000000x2.Slices ![0, 0] S8000000x1
  slices_S8000000x2_S8000000x1_0_1 : S8000000x2.Slices ![0, 1] S8000000x1
  bcast_S_S8000000 : S_.BroadcastsInDim S8000000 (![] : Fin 0 → Fin S8000000.rank)
  reducesTo_S8000000_S_d0 : S8000000.ReducesTo [0] S_
  h_S_ : 0 < S_.numel

variable [Facts₀]

class Facts : Prop extends Facts₀ where

variable [Facts]
-- ==== Proof.LibSums.lean ====
/-
  Sums regrouped.

  A sum over a range cut into equal blocks is the double sum over blocks and places inside a block; a sum over a range
  whose tail terms vanish is the sum over the head; a sum over the indices of a rank-1, rank-2 or rank-3 array is the
  iterated sum over the coordinates. All of it holds in any additive commutative monoid, so also for the extended reals,
  whose addition is commutative and associative even at the infinities. The last part is about the extended reals alone:
  negation passes through a sum of non-negative terms, the embedding of the reals passes through a sum, and a few facts
  on the sign and the finiteness of sums and squares.
-/
import Mathlib.Algebra.BigOperators.Fin
import Mathlib.Algebra.BigOperators.Group.Finset.Basic
import Mathlib.Algebra.Order.BigOperators.Group.Finset
import Mathlib.Logic.Equiv.Fin.Basic
import Mathlib.Data.EReal.Operations
import Idealize.ShloMosaic.PureOps.Ideal
import Idealize.ShloMosaic.Lib.ValueIdx

open scoped BigOperators

namespace Cert.LibSums

open Idealize.ShloMosaic

section Monoid

variable {M : Type*} [AddCommMonoid M]

/-! ## Blocks and tails -/

/-- `B` blocks of `R` consecutive places: the double sum over (block, place in the block) is the sum over all `B * R` places. -/
theorem sum_blocks (B R : ℕ) (f : ℕ → M) :
    ∑ t : Fin B, ∑ r : Fin R, f (t.val * R + r.val) = ∑ i : Fin (B * R), f i.val := by
  rw [← Equiv.sum_comp (finProdFinEquiv (m := B) (n := R)) (fun i => f i.val), Fintype.sum_prod_type]
  refine Finset.sum_congr rfl fun t _ => Finset.sum_congr rfl fun r _ => ?_
  show f (t.val * R + r.val) = f (r.val + R * t.val)
  rw [Nat.mul_comm, Nat.add_comm]

/-- Five blocks of 3000. -/
theorem sum_blocks_5_3000 (f : ℕ → M) :
    ∑ t : Fin 5, ∑ r : Fin 3000, f (t.val * 3000 + r.val) = ∑ i : Fin 15000, f i.val := sum_blocks 5 3000 f

/-- Twenty-five blocks of 4000. -/
theorem sum_blocks_25_4000 (f : ℕ → M) :
    ∑ t : Fin 25, ∑ r : Fin 4000, f (t.val * 4000 + r.val) = ∑ i : Fin 100000, f i.val := sum_blocks 25 4000 f

/-- A hundred and fifty-eight blocks of 64. -/
theorem sum_blocks_158_64 (f : ℕ → M) :
    ∑ t : Fin 158, ∑ r : Fin 64, f (t.val * 64 + r.val) = ∑ i : Fin 10112, f i.val := sum_blocks 158 64 f

/-- A sum over the first `N` naturals whose terms from `n` on vanish is the sum over the first `n`. -/
theorem sum_fin_le (n N : ℕ) (h : n ≤ N) (f : ℕ → M) (hf : ∀ i, n ≤ i → i < N → f i = 0) :
    ∑ i : Fin N, f i.val = ∑ i : Fin n, f i.val := by
  rw [Fin.sum_univ_eq_sum_range f N, Fin.sum_univ_eq_sum_range f n]
  refine (Finset.sum_subset (Finset.range_subset_range.2 h) fun i hi hni => ?_).symm
  exact hf i (Nat.le_of_not_lt fun hlt => hni (Finset.mem_range.2 hlt)) (Finset.mem_range.1 hi)

/-- Two indices at once: rows in `B` blocks of `R`, columns up to `C`, the function vanishing as soon as the row
    reaches `n` or the column reaches `m`: the triple sum is the double sum over `n` rows and `m` columns. -/
theorem sum_blocks_tail2 (B R C n m : ℕ) (hn : n ≤ B * R) (hm : m ≤ C) (f : ℕ → ℕ → M)
    (hf : ∀ r c, n ≤ r ∨ m ≤ c → f r c = 0) :
    ∑ t : Fin B, ∑ r : Fin R, ∑ c : Fin C, f (t.val * R + r.val) c.val = ∑ r : Fin n, ∑ c : Fin m, f r.val c.val := by
  rw [sum_blocks B R (fun i => ∑ c : Fin C, f i c.val)]
  rw [sum_fin_le n (B * R) hn (fun i => ∑ c : Fin C, f i c.val)
    (fun i hi _ => Finset.sum_eq_zero fun c _ => hf i c.val (Or.inl hi))]
  refine Finset.sum_congr rfl fun r _ => ?_
  exact sum_fin_le m C hm (f r.val) (fun c hc _ => hf r.val c (Or.inr hc))

/-- Rows in 158 blocks of 64 against 10112 columns, of which the first 10000 rows and columns count. -/
theorem sum_158_64_10112 (f : ℕ → ℕ → M) (hf : ∀ r c, 10000 ≤ r ∨ 10000 ≤ c → f r c = 0) :
    ∑ t : Fin 158, ∑ r : Fin 64, ∑ c : Fin 10112, f (t.val * 64 + r.val) c.val
      = ∑ r : Fin 10000, ∑ c : Fin 10000, f r.val c.val :=
  sum_blocks_tail2 158 64 10112 10000 10000 (by decide) (by decide) f hf

end Monoid

section Idx

variable {M : Type*} [AddCommMonoid M]

open Idealize.ShloMosaic.ValueIdx

/-! ## Sums over an array's indices, by coordinates (rank 2 is the library's `ValueIdx.sum_idx2`) -/

/-- A rank-1 index set is its one coordinate's range. -/
def idxEquiv1 {n : ℕ} : (⟨1, ![n]⟩ : Shape).Idx ≃ Fin n where
  toFun i := i 0
  invFun a := ix1 a
  left_inv i := (eq_ix1 i).symm
  right_inv _ := rfl

/-- A sum over the indices of a rank-1 array is the sum over its one coordinate. -/
theorem sum_idx1 {n : ℕ} (g : (⟨1, ![n]⟩ : Shape).Idx → M) : ∑ j, g j = ∑ p : Fin n, g (ix1 p) := by
  rw [← Equiv.sum_comp (idxEquiv1 (n := n)).symm g]
  rfl

/-- A rank-3 index set is the product of its three coordinate ranges. -/
def idxEquiv3 {n0 n1 n2 : ℕ} : (⟨3, ![n0, n1, n2]⟩ : Shape).Idx ≃ Fin n0 × Fin n1 × Fin n2 where
  toFun i := (i 0, i 1, i 2)
  invFun p := ix3 p.1 p.2.1 p.2.2
  left_inv i := (eq_ix3 i).symm
  right_inv _ := rfl

/-- A sum over the indices of a rank-3 array is the triple sum over the coordinates. -/
theorem sum_idx3 {n0 n1 n2 : ℕ} (g : (⟨3, ![n0, n1, n2]⟩ : Shape).Idx → M) :
    ∑ j, g j = ∑ p : Fin n0, ∑ q : Fin n1, ∑ r : Fin n2, g (ix3 p q r) := by
  rw [← Equiv.sum_comp (idxEquiv3 (n0 := n0) (n1 := n1) (n2 := n2)).symm g, Fintype.sum_prod_type]
  refine Finset.sum_congr rfl fun p _ => ?_
  rw [Fintype.sum_prod_type]
  rfl

/-- A sum over the indices of a rank-2 array is the double sum over the coordinates (the library's `sum_idx2`, restated
    with the index type written out). -/
theorem sum_idx2' {a b : ℕ} (g : (⟨2, ![a, b]⟩ : Shape).Idx → M) :
    ∑ j : (⟨2, ![a, b]⟩ : Shape).Idx, g j = ∑ p : Fin a, ∑ q : Fin b, g (ix2 p q) := sum_idx2 g

end Idx

/-! ## The extended reals -/

section EReal

variable {ι : Type*}

/-- The embedding of the reals passes through a finite sum. -/
theorem sum_coe (s : Finset ι) (f : ι → ℝ) : ∑ i ∈ s, ((f i : ℝ) : EReal) = ((∑ i ∈ s, f i : ℝ) : EReal) := by
  classical
  induction s using Finset.induction_on with
  | empty => simp
  | insert i s hi ih => rw [Finset.sum_insert hi, Finset.sum_insert hi, ih, EReal.coe_add]

/-- A sum none of whose terms is `⊥` is not `⊥`. -/
theorem sum_ne_bot (s : Finset ι) (a : ι → EReal) (h : ∀ i ∈ s, a i ≠ ⊥) : ∑ i ∈ s, a i ≠ ⊥ := by
  classical
  induction s using Finset.induction_on with
  | empty => simp
  | insert i s hi ih =>
    rw [Finset.sum_insert hi]
    exact EReal.add_ne_bot_iff.2 ⟨h i (Finset.mem_insert_self i s), ih fun j hj => h j (Finset.mem_insert_of_mem hj)⟩

/-- A sum none of whose terms is `⊤` is not `⊤` (whatever the other terms: `⊤ + ⊥ = ⊥`). -/
theorem sum_ne_top (s : Finset ι) (a : ι → EReal) (h : ∀ i ∈ s, a i ≠ ⊤) : ∑ i ∈ s, a i ≠ ⊤ := by
  classical
  induction s using Finset.induction_on with
  | empty => simp
  | insert i s hi ih =>
    rw [Finset.sum_insert hi]
    exact EReal.add_ne_top (h i (Finset.mem_insert_self i s)) (ih fun j hj => h j (Finset.mem_insert_of_mem hj))

/-- A sum of reals is not `⊥`. -/
theorem sum_coe_ne_bot (s : Finset ι) (f : ι → ℝ) : ∑ i ∈ s, ((f i : ℝ) : EReal) ≠ ⊥ :=
  sum_ne_bot s _ fun i _ => EReal.coe_ne_bot (f i)

/-- A sum of reals is not `⊤`. -/
theorem sum_coe_ne_top (s : Finset ι) (f : ι → ℝ) : ∑ i ∈ s, ((f i : ℝ) : EReal) ≠ ⊤ :=
  sum_ne_top s _ fun i _ => EReal.coe_ne_top (f i)

/-- A sum of non-negative terms is non-negative. -/
theorem sum_nonneg (s : Finset ι) (a : ι → EReal) (h : ∀ i ∈ s, 0 ≤ a i) : 0 ≤ ∑ i ∈ s, a i :=
  Finset.sum_nonneg h

/-- Each term of a sum of non-negative terms is at most the sum. -/
theorem le_sum_of_nonneg (s : Finset ι) (a : ι → EReal) (h : ∀ i ∈ s, 0 ≤ a i) {i : ι} (hi : i ∈ s) :
    a i ≤ ∑ j ∈ s, a j :=
  Finset.single_le_sum h hi

/-- A sum of non-negative terms one of which is positive is positive. -/
theorem sum_pos (s : Finset ι) (a : ι → EReal) (h : ∀ i ∈ s, 0 ≤ a i) {i : ι} (hi : i ∈ s) (hpos : 0 < a i) :
    0 < ∑ j ∈ s, a j :=
  lt_of_lt_of_le hpos (le_sum_of_nonneg s a h hi)

/-- If a sum of non-negative terms is below `⊤`, so is every term. -/
theorem lt_top_of_sum_lt_top (s : Finset ι) (a : ι → EReal) (h : ∀ i ∈ s, 0 ≤ a i) (hs : ∑ i ∈ s, a i < ⊤) :
    ∀ i ∈ s, a i < ⊤ :=
  fun _ hi => lt_of_le_of_lt (le_sum_of_nonneg s a h hi) hs

/-- Negation passes through a sum of non-negative terms: no partial sum is `⊥`, so no `⊤ + ⊥` is met. -/
theorem neg_sum_of_nonneg (s : Finset ι) (a : ι → EReal) (h : ∀ i ∈ s, 0 ≤ a i) :
    ∑ i ∈ s, -(a i) = -(∑ i ∈ s, a i) := by
  classical
  induction s using Finset.induction_on with
  | empty => simp
  | insert i s hi ih =>
    have hs : ∀ j ∈ s, 0 ≤ a j := fun j hj => h j (Finset.mem_insert_of_mem hj)
    have h1 : a i ≠ ⊥ := ne_of_gt (lt_of_lt_of_le EReal.bot_lt_zero (h i (Finset.mem_insert_self i s)))
    have h2 : ∑ j ∈ s, a j ≠ ⊥ := ne_of_gt (lt_of_lt_of_le EReal.bot_lt_zero (sum_nonneg s a hs))
    rw [Finset.sum_insert hi, Finset.sum_insert hi, ih hs, EReal.neg_add (Or.inl h1) (Or.inr h2), sub_eq_add_neg]

/-- A square is non-negative, also at the infinities (`⊥ * ⊥ = ⊤`). -/
theorem ereal_mul_self_nonneg (x : EReal) : 0 ≤ x * x := by
  induction x with
  | bot => rw [EReal.bot_mul_bot]; exact le_top
  | coe r => rw [← EReal.coe_mul]; exact EReal.coe_nonneg.2 (_root_.mul_self_nonneg r)
  | top => rw [EReal.top_mul_top]; exact le_top

/-- The square of a non-zero extended real is positive. -/
theorem ereal_mul_self_pos (x : EReal) (hx : x ≠ 0) : 0 < x * x := by
  induction x with
  | bot => rw [EReal.bot_mul_bot]; exact EReal.zero_lt_top
  | coe r =>
    rw [← EReal.coe_mul]
    exact EReal.coe_pos.2 (_root_.mul_self_pos.2 fun hr => hx (by rw [hr, EReal.coe_zero]))
  | top => rw [EReal.top_mul_top]; exact EReal.zero_lt_top

/-- A square below `⊤` is the square of a real. -/
theorem ereal_of_mul_self_lt_top (x : EReal) (h : x * x < ⊤) : x ≠ ⊥ ∧ x ≠ ⊤ := by
  refine ⟨fun hx => ?_, fun hx => ?_⟩
  · rw [hx, EReal.bot_mul_bot] at h; exact lt_irrefl _ h
  · rw [hx, EReal.top_mul_top] at h; exact lt_irrefl _ h

end EReal

end Cert.LibSums
-- ==== Proof.Spec.lean ====
/-
  The loss of one pair of boxes as a function of their eight coordinates, and the sum of the losses regrouped.

  A box is (x1, y1, x2, y2). A box whose corners are out of order (x1 > x2 or y1 > y2) has every coordinate
  clamped below at zero; otherwise it is kept. From the two repaired boxes: the two areas, the intersection
  (its sides clamped below at zero), the union, their quotient; the smallest enclosing box's area; the
  generalized quotient; and the loss, one minus it, clamped below at zero. Every step is an operation of the
  extended reals, so the same expression is meant whichever program evaluates it.

  The kernel lays each coordinate of all the boxes out as a long column, continued past the last box by a
  constant (0 for the low corner, 1 for the high corner), and cuts the columns into 2 x 21 blocks of
  1536 rows of 128 lanes. A box made of the continuation values is the unit square against itself: its loss
  is zero. So the sum over every lane of every row of every block is the sum over the boxes alone; addition
  on the extended reals is commutative and associative, infinities included, so no finiteness is needed.
-/
import Idealize.ShloMosaic.PureOps.Ideal
import Idealize.ShloMosaic.PureOps.Ideal.Laws
import Idealize.ShloMosaic.PureOps.IdealRules
import Idealize.ShloMosaic.Lib.ValueIdx
import proofs.«427724_j3788161155127_3_alg».proof.Proof.LibSums

open scoped BigOperators

noncomputable section

namespace Cert.Giou

open Idealize.ShloMosaic Idealize.ShloMosaic.ValueIdx

/-- The number of boxes. -/
abbrev nBox : ℕ := 8000000

/-- The three constants the programs use, as the extended reals their words denote: 0, 1 and the number of boxes. -/
abbrev zeroE : EReal := Ideal.ofBits .f32 0x00000000#32
abbrev oneE : EReal := Ideal.ofBits .f32 0x3F800000#32
abbrev countE : EReal := Ideal.ofBits .f32 0x4AF42400#32

theorem zeroE_eq : zeroE = 0 := Ideal.ofBits_zero_f32
theorem oneE_eq : oneE = 1 := IdealRules.sign_bit.ideal_onePat .f32

/-- Are the corners of the box out of order? -/
def bad (x1 y1 x2 y2 : EReal) : BitVec 1 := IntOp.ori (Ideal.cmp .ogt x1 x2) (Ideal.cmp .ogt y1 y2)

/-- One coordinate after the repair: clamped below at zero when the box is out of order. -/
def fixc (b : BitVec 1) (x : EReal) : EReal := Scalar.select b (max zeroE x) x

/-- The loss of the pair of boxes (a0, a1, a2, a3), (b0, b1, b2, b3). -/
def loss8 (a0 a1 a2 a3 b0 b1 b2 b3 : EReal) : EReal :=
  let p0 := fixc (bad a0 a1 a2 a3) a0
  let p1 := fixc (bad a0 a1 a2 a3) a1
  let p2 := fixc (bad a0 a1 a2 a3) a2
  let p3 := fixc (bad a0 a1 a2 a3) a3
  let t0 := fixc (bad b0 b1 b2 b3) b0
  let t1 := fixc (bad b0 b1 b2 b3) b1
  let t2 := fixc (bad b0 b1 b2 b3) b2
  let t3 := fixc (bad b0 b1 b2 b3) b3
  let areaP := (p2 - p0) * (p3 - p1)
  let areaT := (t2 - t0) * (t3 - t1)
  let inter := max zeroE (min p2 t2 - max p0 t0) * max zeroE (min p3 t3 - max p1 t1)
  let union := areaP + areaT - inter
  let areaC := max zeroE (max p2 t2 - min p0 t0) * max zeroE (max p3 t3 - min p1 t1)
  max zeroE (oneE - (Ideal.div inter union - Ideal.div (areaC - union) areaC))

/-- The unit square against itself loses nothing. -/
theorem loss8_pad : loss8 zeroE zeroE oneE oneE zeroE zeroE oneE oneE = 0 := by
  have hb : bad zeroE zeroE oneE oneE = 0#1 := by
    unfold bad
    rw [zeroE_eq, oneE_eq]
    have hlt : ¬ ((1 : EReal) < 0) := not_lt.mpr zero_le_one
    simp [Ideal.cmp, IntOp.ori, hlt]
  unfold loss8
  simp only [hb, fixc, Scalar.select]
  rw [zeroE_eq, oneE_eq]
  have h1 : (1 : EReal) - 0 = 1 := sub_zero 1
  have h2 : (1 : EReal) - 1 = 0 := by rw [← EReal.coe_one, ← EReal.coe_sub]; simp
  have h3 : (1 : EReal) + 1 - 1 = 1 := by rw [← EReal.coe_one, ← EReal.coe_add, ← EReal.coe_sub]; norm_num
  have hd1 : Ideal.div 1 1 = 1 := by
    rw [show (1 : EReal) = ((1 : ℝ) : EReal) from rfl, Ideal.div_coe (by norm_num)]; simp
  have hd0 : Ideal.div 0 1 = 0 := by
    rw [show (1 : EReal) = ((1 : ℝ) : EReal) from rfl, Ideal.div_coe (by norm_num)]; simp
  simp [h1, h2, h3, hd1, hd0]

/-! ## The columns -/

/-- Column `j` of an array of boxes, continued past the last box by `pad`. -/
def colPad (p : (⟨2, ![nBox, 4]⟩ : Shape).Idx → EReal) (j : Fin 4) (pad : EReal) (n : ℕ) : EReal :=
  if h : n < nBox then p (ix2 ⟨n, h⟩ j) else pad

theorem colPad_lt (p : (⟨2, ![nBox, 4]⟩ : Shape).Idx → EReal) (j : Fin 4) (pad : EReal) (n : ℕ) (h : n < nBox) :
    colPad p j pad n = p (ix2 ⟨n, h⟩ j) := dif_pos h

theorem colPad_ge (p : (⟨2, ![nBox, 4]⟩ : Shape).Idx → EReal) (j : Fin 4) (pad : EReal) (n : ℕ) (h : nBox ≤ n) :
    colPad p j pad n = pad := dif_neg (Nat.not_lt.2 h)

/-- The loss at place `n` of the continued columns. -/
def lossAt (p t : (⟨2, ![nBox, 4]⟩ : Shape).Idx → EReal) (n : ℕ) : EReal :=
  loss8 (colPad p 0 zeroE n) (colPad p 1 zeroE n) (colPad p 2 oneE n) (colPad p 3 oneE n)
    (colPad t 0 zeroE n) (colPad t 1 zeroE n) (colPad t 2 oneE n) (colPad t 3 oneE n)

/-- The loss of box `n`. -/
def lossBox (p t : (⟨2, ![nBox, 4]⟩ : Shape).Idx → EReal) (n : Fin nBox) : EReal :=
  loss8 (p (ix2 n 0)) (p (ix2 n 1)) (p (ix2 n 2)) (p (ix2 n 3)) (t (ix2 n 0)) (t (ix2 n 1)) (t (ix2 n 2)) (t (ix2 n 3))

theorem lossAt_lt (p t : (⟨2, ![nBox, 4]⟩ : Shape).Idx → EReal) (n : Fin nBox) : lossAt p t n.val = lossBox p t n := by
  unfold lossAt lossBox
  simp only [colPad_lt _ _ _ _ n.isLt]

theorem lossAt_ge (p t : (⟨2, ![nBox, 4]⟩ : Shape).Idx → EReal) (n : ℕ) (h : nBox ≤ n) : lossAt p t n = 0 := by
  unfold lossAt
  simp only [colPad_ge _ _ _ _ h]
  exact loss8_pad

/-! ## The sum regrouped -/

/-- The sum over the lanes of the rows of the blocks of the two halves is the sum over the boxes. -/
theorem sum_regroup (p t : (⟨2, ![nBox, 4]⟩ : Shape).Idx → EReal) :
    ∑ c : Fin 2, ∑ i : Fin 21, ∑ r : Fin 1536, ∑ l : Fin 128,
        lossAt p t (((c.val * 21 + i.val) * 1536 + r.val) * 128 + l.val)
      = ∑ n : Fin nBox, lossBox p t n := by
  have e1 := Cert.LibSums.sum_blocks 2 21 (fun k => ∑ r : Fin 1536, ∑ l : Fin 128, lossAt p t ((k * 1536 + r.val) * 128 + l.val))
  have e2 := Cert.LibSums.sum_blocks 42 1536 (fun R => ∑ l : Fin 128, lossAt p t (R * 128 + l.val))
  have e3 := Cert.LibSums.sum_blocks 64512 128 (fun n => lossAt p t n)
  have e4 := Cert.LibSums.sum_fin_le nBox (64512 * 128) (by norm_num) (fun n => lossAt p t n)
    (fun n hn _ => lossAt_ge p t n hn)
  rw [e1]
  rw [show (2 * 21 : ℕ) = 42 from rfl]
  rw [e2, e3, e4]
  exact Finset.sum_congr rfl fun n _ => lossAt_lt p t n

/-- The mean loss: what both programs return. -/
def meanLoss (p t : (⟨2, ![nBox, 4]⟩ : Shape).Idx → EReal) : EReal :=
  Ideal.div (∑ n : Fin nBox, lossBox p t n) countE

end Cert.Giou

end
-- ==== Proof.RefLoss.lean ====
/-
  The reference, read down to the argument arrays.

  Its loss vector at box n is the loss of the two boxes at row n; its result is the mean of those losses: the sum
  from zero over all the boxes, divided by their number.
-/
import proofs.«427724_j3788161155127_3_alg».proof.Proof.Gen.ReferenceIdeal.Read
import proofs.«427724_j3788161155127_3_alg».proof.Proof.Spec

open scoped BigOperators

noncomputable section

namespace Cert.Giou.Ref

open Cert.ReferenceIdeal Cert.ReferenceIdeal.Read Idealize.ShloMosaic Idealize.ShloMosaic.ValueIdx Cert.Giou

/-- Two indices of an array are equal when their coordinates are: the row coordinate is the row itself (a reshape
    writes it as the row divided by one), the column coordinate is a literal. -/
local macro "idx_eq" : tactic =>
  `(tactic| (funext a; match a with
    | ⟨0, _⟩ => first | rfl | exact Fin.ext (Nat.div_one _)
    | ⟨1, _⟩ => rfl))

/-! ## The columns of the two arguments at row n

A column is cut out of the array as a one-column array and reshaped to a vector: the vector at n is the array
at (n, column). -/

theorem col_v1 (x : (⟨S8000000x4, .f32⟩ : BufTy).Contents (Elt Ideal)) (n : Fin nBox) :
    val_main_v1 (F := Ideal) x (ix1 n) = x (ix2 n 0) := by
  rw [val_main_v1_apply, val_main_v0_apply]
  exact congrArg x (by idx_eq)

theorem col_v3 (x : (⟨S8000000x4, .f32⟩ : BufTy).Contents (Elt Ideal)) (n : Fin nBox) :
    val_main_v3 (F := Ideal) x (ix1 n) = x (ix2 n 2) := by
  rw [val_main_v3_apply, val_main_v2_apply]
  exact congrArg x (by idx_eq)

theorem col_v6 (x : (⟨S8000000x4, .f32⟩ : BufTy).Contents (Elt Ideal)) (n : Fin nBox) :
    val_main_v6 (F := Ideal) x (ix1 n) = x (ix2 n 1) := by
  rw [val_main_v6_apply, val_main_v5_apply]
  exact congrArg x (by idx_eq)

theorem col_v8 (x : (⟨S8000000x4, .f32⟩ : BufTy).Contents (Elt Ideal)) (n : Fin nBox) :
    val_main_v8 (F := Ideal) x (ix1 n) = x (ix2 n 3) := by
  rw [val_main_v8_apply, val_main_v7_apply]
  exact congrArg x (by idx_eq)

theorem col_v15 (x : (⟨S8000000x4, .f32⟩ : BufTy).Contents (Elt Ideal)) (n : Fin nBox) :
    val_main_v15 (F := Ideal) x (ix1 n) = x (ix2 n 0) := by
  rw [val_main_v15_apply, val_main_v14_apply]
  exact congrArg x (by idx_eq)

theorem col_v17 (x : (⟨S8000000x4, .f32⟩ : BufTy).Contents (Elt Ideal)) (n : Fin nBox) :
    val_main_v17 (F := Ideal) x (ix1 n) = x (ix2 n 2) := by
  rw [val_main_v17_apply, val_main_v16_apply]
  exact congrArg x (by idx_eq)

theorem col_v20 (x : (⟨S8000000x4, .f32⟩ : BufTy).Contents (Elt Ideal)) (n : Fin nBox) :
    val_main_v20 (F := Ideal) x (ix1 n) = x (ix2 n 1) := by
  rw [val_main_v20_apply, val_main_v19_apply]
  exact congrArg x (by idx_eq)

theorem col_v22 (x : (⟨S8000000x4, .f32⟩ : BufTy).Contents (Elt Ideal)) (n : Fin nBox) :
    val_main_v22 (F := Ideal) x (ix1 n) = x (ix2 n 3) := by
  rw [val_main_v22_apply, val_main_v21_apply]
  exact congrArg x (by idx_eq)

/-! ## The two masks at row n: are the corners of the box out of order? -/

theorem mask_v10 (x : (⟨S8000000x4, .f32⟩ : BufTy).Contents (Elt Ideal)) (n : Fin nBox) :
    val_main_v10 (F := Ideal) x (ix1 n) = bad (x (ix2 n 0)) (x (ix2 n 1)) (x (ix2 n 2)) (x (ix2 n 3)) := by
  rw [val_main_v10_apply, val_main_v4_apply, val_main_v9_apply, col_v1, col_v3, col_v6, col_v8]
  rfl

theorem mask_v24 (x : (⟨S8000000x4, .f32⟩ : BufTy).Contents (Elt Ideal)) (n : Fin nBox) :
    val_main_v24 (F := Ideal) x (ix1 n) = bad (x (ix2 n 0)) (x (ix2 n 1)) (x (ix2 n 2)) (x (ix2 n 3)) := by
  rw [val_main_v24_apply, val_main_v18_apply, val_main_v23_apply, col_v15, col_v17, col_v20, col_v22]
  rfl

/-! ## The repaired boxes: every coordinate of row n clamped below at zero when the row's mask is set -/

theorem fix_v13 (x : (⟨S8000000x4, .f32⟩ : BufTy).Contents (Elt Ideal)) (n : Fin nBox) (j : Fin 4) :
    val_main_v13 (F := Ideal) x (ix2 n j)
      = fixc (bad (x (ix2 n 0)) (x (ix2 n 1)) (x (ix2 n 2)) (x (ix2 n 3))) (x (ix2 n j)) := by
  rw [val_main_v13_apply, val_main_call1_v0_apply, val_main_v11_apply, val_main_v12_apply, val_main_call0_v1_apply,
    val_main_call0_v0_apply, val_main_cst_apply]
  have h : idx_main_v11 (idx_main_call1_v0 (ix2 n j)) = ix1 n := by
    funext a; match a with | ⟨0, _⟩ => rfl
  rw [h, mask_v10]
  rfl

theorem fix_v27 (x : (⟨S8000000x4, .f32⟩ : BufTy).Contents (Elt Ideal)) (n : Fin nBox) (j : Fin 4) :
    val_main_v27 (F := Ideal) x (ix2 n j)
      = fixc (bad (x (ix2 n 0)) (x (ix2 n 1)) (x (ix2 n 2)) (x (ix2 n 3))) (x (ix2 n j)) := by
  rw [val_main_v27_apply, val_main_call3_v0_apply, val_main_v25_apply, val_main_v26_apply, val_main_call2_v1_apply,
    val_main_call2_v0_apply, val_main_cst_0_apply]
  have h : idx_main_v25 (idx_main_call3_v0 (ix2 n j)) = ix1 n := by
    funext a; match a with | ⟨0, _⟩ => rfl
  rw [h, mask_v24]
  rfl

/-! ## The columns of the repaired boxes at row n -/

theorem col_v29 (x : (⟨S8000000x4, .f32⟩ : BufTy).Contents (Elt Ideal)) (n : Fin nBox) :
    val_main_v29 (F := Ideal) x (ix1 n) = val_main_v13 (F := Ideal) x (ix2 n 2) := by
  rw [val_main_v29_apply, val_main_v28_apply]
  exact congrArg (val_main_v13 (F := Ideal) x) (by idx_eq)

theorem col_v31 (x : (⟨S8000000x4, .f32⟩ : BufTy).Contents (Elt Ideal)) (n : Fin nBox) :
    val_main_v31 (F := Ideal) x (ix1 n) = val_main_v13 (F := Ideal) x (ix2 n 0) := by
  rw [val_main_v31_apply, val_main_v30_apply]
  exact congrArg (val_main_v13 (F := Ideal) x) (by idx_eq)

theorem col_v34 (x : (⟨S8000000x4, .f32⟩ : BufTy).Contents (Elt Ideal)) (n : Fin nBox) :
    val_main_v34 (F := Ideal) x (ix1 n) = val_main_v13 (F := Ideal) x (ix2 n 3) := by
  rw [val_main_v34_apply, val_main_v33_apply]
  exact congrArg (val_main_v13 (F := Ideal) x) (by idx_eq)

theorem col_v36 (x : (⟨S8000000x4, .f32⟩ : BufTy).Contents (Elt Ideal)) (n : Fin nBox) :
    val_main_v36 (F := Ideal) x (ix1 n) = val_main_v13 (F := Ideal) x (ix2 n 1) := by
  rw [val_main_v36_apply, val_main_v35_apply]
  exact congrArg (val_main_v13 (F := Ideal) x) (by idx_eq)

theorem col_v40 (x : (⟨S8000000x4, .f32⟩ : BufTy).Contents (Elt Ideal)) (n : Fin nBox) :
    val_main_v40 (F := Ideal) x (ix1 n) = val_main_v27 (F := Ideal) x (ix2 n 2) := by
  rw [val_main_v40_apply, val_main_v39_apply]
  exact congrArg (val_main_v27 (F := Ideal) x) (by idx_eq)

theorem col_v42 (x : (⟨S8000000x4, .f32⟩ : BufTy).Contents (Elt Ideal)) (n : Fin nBox) :
    val_main_v42 (F := Ideal) x (ix1 n) = val_main_v27 (F := Ideal) x (ix2 n 0) := by
  rw [val_main_v42_apply, val_main_v41_apply]
  exact congrArg (val_main_v27 (F := Ideal) x) (by idx_eq)

theorem col_v45 (x : (⟨S8000000x4, .f32⟩ : BufTy).Contents (Elt Ideal)) (n : Fin nBox) :
    val_main_v45 (F := Ideal) x (ix1 n) = val_main_v27 (F := Ideal) x (ix2 n 3) := by
  rw [val_main_v45_apply, val_main_v44_apply]
  exact congrArg (val_main_v27 (F := Ideal) x) (by idx_eq)

theorem col_v47 (x : (⟨S8000000x4, .f32⟩ : BufTy).Contents (Elt Ideal)) (n : Fin nBox) :
    val_main_v47 (F := Ideal) x (ix1 n) = val_main_v27 (F := Ideal) x (ix2 n 1) := by
  rw [val_main_v47_apply, val_main_v46_apply]
  exact congrArg (val_main_v27 (F := Ideal) x) (by idx_eq)

/-! ## The two-column arrays at row n: the low corners are columns 0 and 1, the high corners columns 2 and 3 -/

theorem pair_v50_0 (x : (⟨S8000000x4, .f32⟩ : BufTy).Contents (Elt Ideal)) (n : Fin nBox) :
    val_main_v50 (F := Ideal) x (ix2 n 0) = val_main_v13 (F := Ideal) x (ix2 n 0) := by
  rw [val_main_v50_apply]
  exact congrArg (val_main_v13 (F := Ideal) x) (by idx_eq)

theorem pair_v50_1 (x : (⟨S8000000x4, .f32⟩ : BufTy).Contents (Elt Ideal)) (n : Fin nBox) :
    val_main_v50 (F := Ideal) x (ix2 n 1) = val_main_v13 (F := Ideal) x (ix2 n 1) := by
  rw [val_main_v50_apply]
  exact congrArg (val_main_v13 (F := Ideal) x) (by idx_eq)

theorem pair_v51_0 (x : (⟨S8000000x4, .f32⟩ : BufTy).Contents (Elt Ideal)) (n : Fin nBox) :
    val_main_v51 (F := Ideal) x (ix2 n 0) = val_main_v27 (F := Ideal) x (ix2 n 0) := by
  rw [val_main_v51_apply]
  exact congrArg (val_main_v27 (F := Ideal) x) (by idx_eq)

theorem pair_v51_1 (x : (⟨S8000000x4, .f32⟩ : BufTy).Contents (Elt Ideal)) (n : Fin nBox) :
    val_main_v51 (F := Ideal) x (ix2 n 1) = val_main_v27 (F := Ideal) x (ix2 n 1) := by
  rw [val_main_v51_apply]
  exact congrArg (val_main_v27 (F := Ideal) x) (by idx_eq)

theorem pair_v53_0 (x : (⟨S8000000x4, .f32⟩ : BufTy).Contents (Elt Ideal)) (n : Fin nBox) :
    val_main_v53 (F := Ideal) x (ix2 n 0) = val_main_v13 (F := Ideal) x (ix2 n 2) := by
  rw [val_main_v53_apply]
  exact congrArg (val_main_v13 (F := Ideal) x) (by idx_eq)

theorem pair_v53_1 (x : (⟨S8000000x4, .f32⟩ : BufTy).Contents (Elt Ideal)) (n : Fin nBox) :
    val_main_v53 (F := Ideal) x (ix2 n 1) = val_main_v13 (F := Ideal) x (ix2 n 3) := by
  rw [val_main_v53_apply]
  exact congrArg (val_main_v13 (F := Ideal) x) (by idx_eq)

theorem pair_v54_0 (x : (⟨S8000000x4, .f32⟩ : BufTy).Contents (Elt Ideal)) (n : Fin nBox) :
    val_main_v54 (F := Ideal) x (ix2 n 0) = val_main_v27 (F := Ideal) x (ix2 n 2) := by
  rw [val_main_v54_apply]
  exact congrArg (val_main_v27 (F := Ideal) x) (by idx_eq)

theorem pair_v54_1 (x : (⟨S8000000x4, .f32⟩ : BufTy).Contents (Elt Ideal)) (n : Fin nBox) :
    val_main_v54 (F := Ideal) x (ix2 n 1) = val_main_v27 (F := Ideal) x (ix2 n 3) := by
  rw [val_main_v54_apply]
  exact congrArg (val_main_v27 (F := Ideal) x) (by idx_eq)

theorem pair_v66_0 (x : (⟨S8000000x4, .f32⟩ : BufTy).Contents (Elt Ideal)) (n : Fin nBox) :
    val_main_v66 (F := Ideal) x (ix2 n 0) = val_main_v13 (F := Ideal) x (ix2 n 0) := by
  rw [val_main_v66_apply]
  exact congrArg (val_main_v13 (F := Ideal) x) (by idx_eq)

theorem pair_v66_1 (x : (⟨S8000000x4, .f32⟩ : BufTy).Contents (Elt Ideal)) (n : Fin nBox) :
    val_main_v66 (F := Ideal) x (ix2 n 1) = val_main_v13 (F := Ideal) x (ix2 n 1) := by
  rw [val_main_v66_apply]
  exact congrArg (val_main_v13 (F := Ideal) x) (by idx_eq)

theorem pair_v67_0 (x : (⟨S8000000x4, .f32⟩ : BufTy).Contents (Elt Ideal)) (n : Fin nBox) :
    val_main_v67 (F := Ideal) x (ix2 n 0) = val_main_v27 (F := Ideal) x (ix2 n 0) := by
  rw [val_main_v67_apply]
  exact congrArg (val_main_v27 (F := Ideal) x) (by idx_eq)

theorem pair_v67_1 (x : (⟨S8000000x4, .f32⟩ : BufTy).Contents (Elt Ideal)) (n : Fin nBox) :
    val_main_v67 (F := Ideal) x (ix2 n 1) = val_main_v27 (F := Ideal) x (ix2 n 1) := by
  rw [val_main_v67_apply]
  exact congrArg (val_main_v27 (F := Ideal) x) (by idx_eq)

theorem pair_v69_0 (x : (⟨S8000000x4, .f32⟩ : BufTy).Contents (Elt Ideal)) (n : Fin nBox) :
    val_main_v69 (F := Ideal) x (ix2 n 0) = val_main_v13 (F := Ideal) x (ix2 n 2) := by
  rw [val_main_v69_apply]
  exact congrArg (val_main_v13 (F := Ideal) x) (by idx_eq)

theorem pair_v69_1 (x : (⟨S8000000x4, .f32⟩ : BufTy).Contents (Elt Ideal)) (n : Fin nBox) :
    val_main_v69 (F := Ideal) x (ix2 n 1) = val_main_v13 (F := Ideal) x (ix2 n 3) := by
  rw [val_main_v69_apply]
  exact congrArg (val_main_v13 (F := Ideal) x) (by idx_eq)

theorem pair_v70_0 (x : (⟨S8000000x4, .f32⟩ : BufTy).Contents (Elt Ideal)) (n : Fin nBox) :
    val_main_v70 (F := Ideal) x (ix2 n 0) = val_main_v27 (F := Ideal) x (ix2 n 2) := by
  rw [val_main_v70_apply]
  exact congrArg (val_main_v27 (F := Ideal) x) (by idx_eq)

theorem pair_v70_1 (x : (⟨S8000000x4, .f32⟩ : BufTy).Contents (Elt Ideal)) (n : Fin nBox) :
    val_main_v70 (F := Ideal) x (ix2 n 1) = val_main_v27 (F := Ideal) x (ix2 n 3) := by
  rw [val_main_v70_apply]
  exact congrArg (val_main_v27 (F := Ideal) x) (by idx_eq)

/-! ## The sides of the intersection and of the enclosing box at row n, clamped below at zero -/

theorem side_v57_0 (p t : (⟨S8000000x4, .f32⟩ : BufTy).Contents (Elt Ideal)) (n : Fin nBox) :
    val_main_v57 (F := Ideal) p t (ix2 n 0)
      = max zeroE (min (val_main_v13 (F := Ideal) p (ix2 n 2)) (val_main_v27 (F := Ideal) t (ix2 n 2))
          - max (val_main_v13 (F := Ideal) p (ix2 n 0)) (val_main_v27 (F := Ideal) t (ix2 n 0))) := by
  rw [val_main_v57_apply, val_main_call4_v1_apply, val_main_call4_v0_apply, val_main_cst_1_apply, val_main_v56_apply,
    val_main_v55_apply, val_main_v52_apply, pair_v53_0, pair_v54_0, pair_v50_0, pair_v51_0]
  rfl

theorem side_v57_1 (p t : (⟨S8000000x4, .f32⟩ : BufTy).Contents (Elt Ideal)) (n : Fin nBox) :
    val_main_v57 (F := Ideal) p t (ix2 n 1)
      = max zeroE (min (val_main_v13 (F := Ideal) p (ix2 n 3)) (val_main_v27 (F := Ideal) t (ix2 n 3))
          - max (val_main_v13 (F := Ideal) p (ix2 n 1)) (val_main_v27 (F := Ideal) t (ix2 n 1))) := by
  rw [val_main_v57_apply, val_main_call4_v1_apply, val_main_call4_v0_apply, val_main_cst_1_apply, val_main_v56_apply,
    val_main_v55_apply, val_main_v52_apply, pair_v53_1, pair_v54_1, pair_v50_1, pair_v51_1]
  rfl

theorem side_v73_0 (p t : (⟨S8000000x4, .f32⟩ : BufTy).Contents (Elt Ideal)) (n : Fin nBox) :
    val_main_v73 (F := Ideal) p t (ix2 n 0)
      = max zeroE (max (val_main_v13 (F := Ideal) p (ix2 n 2)) (val_main_v27 (F := Ideal) t (ix2 n 2))
          - min (val_main_v13 (F := Ideal) p (ix2 n 0)) (val_main_v27 (F := Ideal) t (ix2 n 0))) := by
  rw [val_main_v73_apply, val_main_call5_v1_apply, val_main_call5_v0_apply, val_main_cst_2_apply, val_main_v72_apply,
    val_main_v71_apply, val_main_v68_apply, pair_v69_0, pair_v70_0, pair_v66_0, pair_v67_0]
  rfl

theorem side_v73_1 (p t : (⟨S8000000x4, .f32⟩ : BufTy).Contents (Elt Ideal)) (n : Fin nBox) :
    val_main_v73 (F := Ideal) p t (ix2 n 1)
      = max zeroE (max (val_main_v13 (F := Ideal) p (ix2 n 3)) (val_main_v27 (F := Ideal) t (ix2 n 3))
          - min (val_main_v13 (F := Ideal) p (ix2 n 1)) (val_main_v27 (F := Ideal) t (ix2 n 1))) := by
  rw [val_main_v73_apply, val_main_call5_v1_apply, val_main_call5_v0_apply, val_main_cst_2_apply, val_main_v72_apply,
    val_main_v71_apply, val_main_v68_apply, pair_v69_1, pair_v70_1, pair_v66_1, pair_v67_1]
  rfl

theorem col_v59 (p t : (⟨S8000000x4, .f32⟩ : BufTy).Contents (Elt Ideal)) (n : Fin nBox) :
    val_main_v59 (F := Ideal) p t (ix1 n) = val_main_v57 (F := Ideal) p t (ix2 n 0) := by
  rw [val_main_v59_apply, val_main_v58_apply]
  exact congrArg (val_main_v57 (F := Ideal) p t) (by idx_eq)

theorem col_v61 (p t : (⟨S8000000x4, .f32⟩ : BufTy).Contents (Elt Ideal)) (n : Fin nBox) :
    val_main_v61 (F := Ideal) p t (ix1 n) = val_main_v57 (F := Ideal) p t (ix2 n 1) := by
  rw [val_main_v61_apply, val_main_v60_apply]
  exact congrArg (val_main_v57 (F := Ideal) p t) (by idx_eq)

theorem col_v75 (p t : (⟨S8000000x4, .f32⟩ : BufTy).Contents (Elt Ideal)) (n : Fin nBox) :
    val_main_v75 (F := Ideal) p t (ix1 n) = val_main_v73 (F := Ideal) p t (ix2 n 0) := by
  rw [val_main_v75_apply, val_main_v74_apply]
  exact congrArg (val_main_v73 (F := Ideal) p t) (by idx_eq)

theorem col_v77 (p t : (⟨S8000000x4, .f32⟩ : BufTy).Contents (Elt Ideal)) (n : Fin nBox) :
    val_main_v77 (F := Ideal) p t (ix1 n) = val_main_v73 (F := Ideal) p t (ix2 n 1) := by
  rw [val_main_v77_apply, val_main_v76_apply]
  exact congrArg (val_main_v73 (F := Ideal) p t) (by idx_eq)

/-! ## The loss vector and its mean -/

/-- The reference's loss vector at box `n` is the loss of the two boxes there. -/
theorem loss_apply (p t : (⟨S8000000x4, .f32⟩ : BufTy).Contents (Elt Ideal)) (n : Fin nBox) :
    val_main_v84 (F := Ideal) p t (ix1 n) = lossBox p t n := by
  rw [val_main_v84_apply, val_main_call6_v1_apply, val_main_call6_v0_apply, val_main_cst_4_apply, val_main_v83_apply,
    val_main_v82_apply, val_main_cst_3_apply, val_main_v81_apply, val_main_v65_apply, val_main_v80_apply,
    val_main_v79_apply, val_main_v78_apply, val_main_v64_apply, val_main_v63_apply, val_main_v62_apply,
    val_main_v38_apply, val_main_v49_apply, val_main_v32_apply, val_main_v37_apply, val_main_v43_apply,
    val_main_v48_apply,
    col_v59, col_v61, col_v75, col_v77, side_v57_0, side_v57_1, side_v73_0, side_v73_1,
    col_v29, col_v31, col_v34, col_v36, col_v40, col_v42, col_v45, col_v47]
  simp only [fix_v13, fix_v27]
  rfl

/-- The reference's result is the mean loss. -/
theorem mean_eq (p t : (⟨S8000000x4, .f32⟩ : BufTy).Contents (Elt Ideal)) :
    val_main_v86 (F := Ideal) p t = fun _ => meanLoss p t := by
  funext i
  rw [val_main_v86_apply, val_main_v85_apply, val_main_cst_5_apply, val_main_cst_6_apply, Ideal.hostDivf_def,
    Ideal.ofBits_def, Ideal.ofBits_def]
  show Ideal.div (zeroE + ∑ j : S8000000.Idx, val_main_v84 (F := Ideal) p t j) countE = meanLoss p t
  rw [zeroE_eq, zero_add, Cert.LibSums.sum_idx1]
  unfold meanLoss
  exact congrArg (fun s => Ideal.div s countE) (Finset.sum_congr rfl fun n _ => loss_apply p t n)

end Cert.Giou.Ref

end
-- ==== Proof.Pieces.lean ====
/-
  What one grid point leaves in the output block.

  The output block is 1 x 8 x 128; only its cell (0, 0, 0) carries the running sum. At the first point of each half the
  body stores zeros over the whole block, reads the cell back (a zero) and stores cell + sum of the block's losses into
  the cell; at every other point it reads the cell the point before left and stores cell + sum into it, touching nothing
  else. Here the body's stores are read back as values, for any instance of the float operations.
-/
import proofs.«427724_j3788161155127_3_alg».proof.Proof.Gen.KernelIdeal.Frame
import Idealize.ShloMosaic.Lib.Pipeline.Value
import Idealize.ShloMosaic.Lib.WritesUnit
import Idealize.ShloMosaic.Lib.ValueIdx
import Idealize.ShloMosaic.Lib.Tactic

noncomputable section

namespace Cert.Giou.Pieces

open Cert.KernelIdeal Cert.KernelIdeal.Gen Idealize.ShloMosaic Idealize.ShloMosaic.TcCoe Idealize.SL.Sem
open Idealize.ShloMosaic.Tactic Idealize.ShloMosaic.ValueIdx

variable {F : FTy → Type} [FloatOps F]

theorem hz2 : (![0, 0] : Fin 2 → Nat) = fun _ => 0 := funext fun a => by fin_cases a <;> rfl
theorem hz3 : (![0, 0, 0] : Fin 3 → Nat) = fun _ => 0 := funext fun a => by fin_cases a <;> rfl

/-- The zero the block is reset to. -/
abbrev zeroF : F .f32 := FloatOps.ofBits .f32 0#32

/-- The cell of the output block that carries the sum, and the one index of a 1 x 1 x 1 vector. -/
abbrev cell : S1x8x128.Idx := ix3 0 0 0
abbrev cell1 : S1x1x1.Idx := ix3 0 0 0

/-- The losses of the 1536 x 128 boxes of a block, before the last clamp: a function of the eight coordinate blocks. -/
def lossBlk (x0 x1 x2 x3 x4 x5 x6 x7 : Vec F S1536x128 .f32) : FVec F S1536x128 .f32 :=
  k0_pay17 (k0_pay7 x4) (k0_pay8 x5) (k0_pay9 x6) (k0_pay10 x7) (k0_pay12 x0 x1 x2 x3) (k0_pay13 x0 x1 x2 x3)
    (k0_pay14 x0 x1 x2 x3) (k0_pay15 x0 x1 x2 x3) (k0_pay16 x4 x6)

/-- What is stored into the cell: the cell's value `cur` plus the sum of the block's clamped losses. -/
def newCell (x0 x1 x2 x3 x4 x5 x6 x7 : Vec F S1536x128 .f32) (cur : Vec F S1x1x1 .f32) : FVec F S1x1x1 .f32 :=
  k0_pay1 (lossBlk x0 x1 x2 x3 x4 x5 x6 x7) zeroF cur

/-- An index of the block other than the cell misses the cell's 1 x 1 x 1 rectangle on axis 1 or on axis 2. -/
theorem off_cell (y : S1x8x128.Idx) (hy : y ≠ cell) : (y 1).val ≠ 0 ∨ (y 2).val ≠ 0 := by
  by_cases h1 : (y 1).val = 0
  · by_cases h2 : (y 2).val = 0
    · refine absurd (funext fun a => Fin.ext ?_) hy
      have h0 : (y 0).val < 1 := (y 0).isLt
      match a with
      | ⟨0, _⟩ => show (y 0).val = 0; omega
      | ⟨1, _⟩ => exact h1
      | ⟨2, _⟩ => exact h2
    · exact Or.inr h2
  · exact Or.inl h1

/-- FIRST POINT OF A HALF, the cell: zero (the reset, read back) plus the block's sum. -/
theorem out_A_cell (c : Dev nD) (i : grid0.Coords) (arg2 : Memref sig .tc .vmem S1536x128 .f32) (harg2 : arg2.IsWhole) (arg3 : Memref sig .tc .vmem S1536x128 .f32) (harg3 : arg3.IsWhole) (arg4 : Memref sig .tc .vmem S1536x128 .f32) (harg4 : arg4.IsWhole) (arg5 : Memref sig .tc .vmem S1536x128 .f32) (harg5 : arg5.IsWhole) (arg6 : Memref sig .tc .vmem S1536x128 .f32) (harg6 : arg6.IsWhole) (arg7 : Memref sig .tc .vmem S1536x128 .f32) (harg7 : arg7.IsWhole) (arg8 : Memref sig .tc .vmem S1536x128 .f32) (harg8 : arg8.IsWhole) (arg9 : Memref sig .tc .vmem S1536x128 .f32) (harg9 : arg9.IsWhole) (arg10 : Memref sig .tc .vmem S1x8x128 .f32) (harg10 : arg10.IsWhole) (hc0 : cond0_0 i) (x0 x1 x2 x3 x4 x5 x6 x7 : Vec F S1536x128 .f32) :
    out0_A_8 c i arg2 harg2 arg3 harg3 arg4 harg4 arg5 harg5 arg6 harg6 arg7 harg7 arg8 harg8 arg9 harg9 arg10 harg10 hc0 x0 x1 x2 x3 x4 x5 x6 x7 cell = newCell x0 x1 x2 x3 x4 x5 x6 x7 (fun _ => zeroF) cell1 := by
  unfold out0_A_8
  unfold kernelRun0_A
  dsimp only
  sl_unfold_words
  simp only [View.readAt_eq_ld, harg2.read_unread, harg3.read_unread, harg4.read_unread, harg5.read_unread, harg6.read_unread,
    harg7.read_unread, harg8.read_unread, harg9.read_unread, View.ld_unit_zero (S := S1536x128) hz2]
  refine (View.read_writes_cons_unit_of_mem VO0_8 _ inb_S1x8x128_S1x1x1_0_0_0 _ _ cell cell1 rfl
    (fun a => by fin_cases a <;> rfl)).trans ?_
  have hcur : arg10.view.readCov [(⟨Rect.unit ![0, 0, 0] S1x8x128.size inb_S1x8x128_S1x8x128_0_0_0, k0_pay2 (F := F)⟩ : View.Piece (Elt F) S1x8x128 .f32)]
      (Rect.unit ![0, 0, 0] ![1, 1, 1] inb_S1x8x128_S1x1x1_0_0_0).toLoadRect = fun _ => zeroF := by
    rw [View.readCov_eq_canon_ld _ _ _ (fun y => ⟨_, List.mem_singleton_self _, View.mem_set_unit_zero hz3 inb_S1x8x128_S1x8x128_0_0_0 y⟩),
      View.canon_unit_zero hz3]
    rfl
  exact congrArg (fun cur => newCell x0 x1 x2 x3 x4 x5 x6 x7 cur cell1) hcur

/-- FIRST POINT OF A HALF, elsewhere: the zero of the reset. -/
theorem out_A_rest (c : Dev nD) (i : grid0.Coords) (arg2 : Memref sig .tc .vmem S1536x128 .f32) (harg2 : arg2.IsWhole) (arg3 : Memref sig .tc .vmem S1536x128 .f32) (harg3 : arg3.IsWhole) (arg4 : Memref sig .tc .vmem S1536x128 .f32) (harg4 : arg4.IsWhole) (arg5 : Memref sig .tc .vmem S1536x128 .f32) (harg5 : arg5.IsWhole) (arg6 : Memref sig .tc .vmem S1536x128 .f32) (harg6 : arg6.IsWhole) (arg7 : Memref sig .tc .vmem S1536x128 .f32) (harg7 : arg7.IsWhole) (arg8 : Memref sig .tc .vmem S1536x128 .f32) (harg8 : arg8.IsWhole) (arg9 : Memref sig .tc .vmem S1536x128 .f32) (harg9 : arg9.IsWhole) (arg10 : Memref sig .tc .vmem S1x8x128 .f32) (harg10 : arg10.IsWhole) (hc0 : cond0_0 i) (x0 x1 x2 x3 x4 x5 x6 x7 : Vec F S1536x128 .f32)
    (y : S1x8x128.Idx) (hy : y ≠ cell) :
    out0_A_8 c i arg2 harg2 arg3 harg3 arg4 harg4 arg5 harg5 arg6 harg6 arg7 harg7 arg8 harg8 arg9 harg9 arg10 harg10 hc0 x0 x1 x2 x3 x4 x5 x6 x7 y = zeroF := by
  unfold out0_A_8
  unfold kernelRun0_A
  dsimp only
  sl_unfold_words
  have h12 := off_cell y hy
  have hmiss : ∃ a : Fin 3, (y a).val < (![0, 0, 0] : Fin 3 → ℕ) a ∨ (![0, 0, 0] : Fin 3 → ℕ) a + (![1, 1, 1] : Fin 3 → ℕ) a ≤ (y a).val := by
    rcases h12 with h | h
    · exact ⟨1, Or.inr (by show 0 + 1 ≤ (y 1).val; omega)⟩
    · exact ⟨2, Or.inr (by show 0 + 1 ≤ (y 2).val; omega)⟩
  obtain ⟨a, ha⟩ := hmiss
  rw [View.read_writes_cons_unit_of_not_mem VO0_8 _ inb_S1x8x128_S1x1x1_0_0_0 _ _ y rfl a ha]
  exact View.read_writes_cons_unit_of_mem VO0_8 _ inb_S1x8x128_S1x8x128_0_0_0 _ [] y y rfl
    (fun a => by fin_cases a <;> (show _ = 0 + _; omega))

/-- The cell read through its 1 x 1 x 1 rectangle is the cell. -/
theorem ld_cell (xo8 : Vec F S1x8x128 .f32) :
    View.ld xo8 (Rect.unit ![0, 0, 0] ![1, 1, 1] inb_S1x8x128_S1x1x1_0_0_0) = fun _ => xo8 cell := by
  funext x
  show xo8 _ = xo8 cell
  congr 1
  funext a
  apply Fin.ext
  have hx : (x a).val < 1 := by fin_cases a <;> exact (x _).isLt
  fin_cases a <;> (show 0 + 1 * _ = 0; omega)

/-- LATER POINTS, the cell: what the point before left there plus the block's sum. -/
theorem out_B_cell (c : Dev nD) (i : grid0.Coords) (arg2 : Memref sig .tc .vmem S1536x128 .f32) (harg2 : arg2.IsWhole) (arg3 : Memref sig .tc .vmem S1536x128 .f32) (harg3 : arg3.IsWhole) (arg4 : Memref sig .tc .vmem S1536x128 .f32) (harg4 : arg4.IsWhole) (arg5 : Memref sig .tc .vmem S1536x128 .f32) (harg5 : arg5.IsWhole) (arg6 : Memref sig .tc .vmem S1536x128 .f32) (harg6 : arg6.IsWhole) (arg7 : Memref sig .tc .vmem S1536x128 .f32) (harg7 : arg7.IsWhole) (arg8 : Memref sig .tc .vmem S1536x128 .f32) (harg8 : arg8.IsWhole) (arg9 : Memref sig .tc .vmem S1536x128 .f32) (harg9 : arg9.IsWhole) (arg10 : Memref sig .tc .vmem S1x8x128 .f32) (harg10 : arg10.IsWhole) (hc0 : ¬cond0_0 i) (x0 x1 x2 x3 x4 x5 x6 x7 : Vec F S1536x128 .f32)
    (xo8 : Vec F S1x8x128 .f32) :
    out0_B_8 c i arg2 harg2 arg3 harg3 arg4 harg4 arg5 harg5 arg6 harg6 arg7 harg7 arg8 harg8 arg9 harg9 arg10 harg10 hc0 x0 x1 x2 x3 x4 x5 x6 x7 xo8 cell = newCell x0 x1 x2 x3 x4 x5 x6 x7 (fun _ => xo8 cell) cell1 := by
  unfold out0_B_8
  unfold kernelRun0_B
  dsimp only
  sl_unfold_words
  simp only [View.readAt_eq_ld, harg2.read_unread, harg3.read_unread, harg4.read_unread, harg5.read_unread, harg6.read_unread,
    harg7.read_unread, harg8.read_unread, harg9.read_unread, harg10.read_unread, View.ld_unit_zero (S := S1536x128) hz2, ld_cell]
  exact View.read_writes_cons_unit_of_mem arg10.view _ inb_S1x8x128_S1x1x1_0_0_0 _ _ cell cell1 rfl
    (fun a => by fin_cases a <;> rfl)

/-- LATER POINTS, elsewhere: untouched. -/
theorem out_B_rest (c : Dev nD) (i : grid0.Coords) (arg2 : Memref sig .tc .vmem S1536x128 .f32) (harg2 : arg2.IsWhole) (arg3 : Memref sig .tc .vmem S1536x128 .f32) (harg3 : arg3.IsWhole) (arg4 : Memref sig .tc .vmem S1536x128 .f32) (harg4 : arg4.IsWhole) (arg5 : Memref sig .tc .vmem S1536x128 .f32) (harg5 : arg5.IsWhole) (arg6 : Memref sig .tc .vmem S1536x128 .f32) (harg6 : arg6.IsWhole) (arg7 : Memref sig .tc .vmem S1536x128 .f32) (harg7 : arg7.IsWhole) (arg8 : Memref sig .tc .vmem S1536x128 .f32) (harg8 : arg8.IsWhole) (arg9 : Memref sig .tc .vmem S1536x128 .f32) (harg9 : arg9.IsWhole) (arg10 : Memref sig .tc .vmem S1x8x128 .f32) (harg10 : arg10.IsWhole) (hc0 : ¬cond0_0 i) (x0 x1 x2 x3 x4 x5 x6 x7 : Vec F S1536x128 .f32)
    (xo8 : Vec F S1x8x128 .f32) (y : S1x8x128.Idx) (hy : y ≠ cell) :
    out0_B_8 c i arg2 harg2 arg3 harg3 arg4 harg4 arg5 harg5 arg6 harg6 arg7 harg7 arg8 harg8 arg9 harg9 arg10 harg10 hc0 x0 x1 x2 x3 x4 x5 x6 x7 xo8 y = xo8 y := by
  unfold out0_B_8
  unfold kernelRun0_B
  dsimp only
  sl_unfold_words
  have h12 := off_cell y hy
  have hmiss : ∃ a : Fin 3, (y a).val < (![0, 0, 0] : Fin 3 → ℕ) a ∨ (![0, 0, 0] : Fin 3 → ℕ) a + (![1, 1, 1] : Fin 3 → ℕ) a ≤ (y a).val := by
    rcases h12 with h | h
    · exact ⟨1, Or.inr (by show 0 + 1 ≤ (y 1).val; omega)⟩
    · exact ⟨2, Or.inr (by show 0 + 1 ≤ (y 2).val; omega)⟩
  obtain ⟨a, ha⟩ := hmiss
  rw [View.read_writes_cons_unit_of_not_mem arg10.view _ inb_S1x8x128_S1x1x1_0_0_0 _ _ y rfl a ha]
  show arg10.view.read (Elt F) (harg10.unread xo8) y = xo8 y
  rw [harg10.read_unread]

end Cert.Giou.Pieces

end
-- ==== Proof.Payload.lean ====
/-
  The cell's new value, over the extended reals.

  The block's clamped loss at row r, lane l is the loss of the eight coordinates there; the body sums the lanes of each
  row, then the rows, and adds the total to the cell: cell + the double sum of the losses.
-/
import proofs.«427724_j3788161155127_3_alg».proof.Proof.Pieces
import proofs.«427724_j3788161155127_3_alg».proof.Proof.Spec
import Idealize.ShloMosaic.PureOps.Ideal.Laws

open scoped BigOperators

noncomputable section

namespace Cert.Giou.Payload

open Cert.KernelIdeal Cert.KernelIdeal.Gen Idealize.ShloMosaic Idealize.ShloMosaic.TcCoe Idealize.SL.Sem
open Idealize.ShloMosaic.ValueIdx Cert.Giou Cert.Giou.Pieces

/-- The clamped loss of the block at row r, lane l is the loss of the eight coordinates there. -/
theorem clamped_apply (x0 x1 x2 x3 x4 x5 x6 x7 : Vec Ideal S1536x128 .f32) (r : Fin 1536) (l : Fin 128) :
    maximumf (broadcast S1536x128 (zeroF (F := Ideal))) (lossBlk x0 x1 x2 x3 x4 x5 x6 x7) (ix2 r l) = loss8 (x0 (ix2 r l)) (x1 (ix2 r l)) (x2 (ix2 r l)) (x3 (ix2 r l)) (x4 (ix2 r l)) (x5 (ix2 r l)) (x6 (ix2 r l)) (x7 (ix2 r l)) := by
  unfold lossBlk k0_pay17 k0_pay12 k0_pay13 k0_pay14 k0_pay15 k0_pay16 k0_pay11 k0_pay7 k0_pay8 k0_pay9 k0_pay10 k0_pay3 k0_pay4 k0_pay5 k0_pay6
  simp only [shapeCast_self]
  unfold loss8 fixc bad
  simp only [maximumf, minimumf, subf, mulf, addf, divf, select, cmpf, ori, broadcast, Ideal.maximumf_def, Ideal.minimumf_def,
    Ideal.subf_def, Ideal.mulf_def, Ideal.addf_def, Ideal.divf_def, Ideal.cmpf_def, Ideal.ofBits_def]

/-- The cell's new value: the cell plus the sum over the rows of the sum over the lanes of the losses. -/
theorem newCell_apply (x0 x1 x2 x3 x4 x5 x6 x7 : Vec Ideal S1536x128 .f32) (cur : Vec Ideal S1x1x1 .f32) :
    newCell x0 x1 x2 x3 x4 x5 x6 x7 cur cell1 = cur cell1 + ∑ r : Fin 1536, ∑ l : Fin 128, loss8 (x0 (ix2 r l)) (x1 (ix2 r l)) (x2 (ix2 r l)) (x3 (ix2 r l)) (x4 (ix2 r l)) (x5 (ix2 r l)) (x6 (ix2 r l)) (x7 (ix2 r l)) := by
  unfold newCell k0_pay1
  dsimp only
  refine (shapeCast_apply _ shapeCasts_S1x1_S1x1x1 cell1 (ix2 0 0)
    (by rw [Shape.rowMajor_val_two, Shape.rowMajor_val_three]; rfl)).trans ?_
  rw [addf_apply]
  congr 1
  · exact shapeCast_apply cur shapeCasts_S1x1x1_S1x1 (ix2 0 0) cell1
      (by rw [Shape.rowMajor_val_two, Shape.rowMajor_val_three]; rfl)
  · refine (shapeCast_apply _ shapeCasts_S1_S1x1 (ix2 0 0) (ix1 0)
      (by rw [Shape.rowMajor_val_one, Shape.rowMajor_val_two]; rfl)).trans ?_
    refine (Ideal.multiReduction_add_single _ _ reduces_S1536x1_S1 _ _ (ix1 0)).trans ?_
    refine Finset.sum_congr rfl fun r _ => ?_
    refine (shapeCast_apply _ shapeCasts_S1536_S1536x1 _ (ix1 r)
      (by rw [Shape.rowMajor_val_one, Shape.rowMajor_val_two]; show r.val = r.val * 1 + 0; omega)).trans ?_
    refine (Ideal.multiReduction_add_single _ _ reduces_S1536x128_S1536 _ _ (ix1 r)).trans ?_
    refine Finset.sum_congr rfl fun l _ => ?_
    have hi : reduces_S1536x128_S1536.lift (ix1 r) l = ix2 r l :=
      funext fun a => Fin.ext (by match a with | ⟨0, _⟩ => rfl | ⟨1, _⟩ => rfl)
    rw [hi]
    exact clamped_apply x0 x1 x2 x3 x4 x5 x6 x7 r l

end Cert.Giou.Payload

end
-- ==== Proof.Cols.lean ====
/-
  The eight column arrays the kernel's windows read.

  Before the kernel runs, each coordinate of the boxes is sliced out of its array as a column, continued by a constant
  up to 64512 * 128 places, and laid out as 64512 rows of 128 lanes: row R, lane l holds place R * 128 + l of the
  continued column.
-/
import proofs.«427724_j3788161155127_3_alg».proof.Proof.Gen.KernelIdeal.Frame
import proofs.«427724_j3788161155127_3_alg».proof.Proof.Spec
import Idealize.ShloMosaic.Lib.Pipeline.Value
import Idealize.ShloMosaic.Lib.StableHlo.Run

noncomputable section

namespace Cert.Giou.Cols

open Cert.KernelIdeal Cert.KernelIdeal.Gen Idealize.ShloMosaic Idealize.ShloMosaic.TcCoe Idealize.SL.Sem
open Idealize.ShloMosaic.ValueIdx Cert.Giou

variable (m : (ℓ : Loc nD τ sig) → Buf (Elt Ideal) ℓ)

/-- Row R, lane l of the array the kernel reads as window 0: column 0 of the first array of boxes, continued by zero. -/
theorem col_v4 (c : Dev nD) (R : Fin 64512) (l : Fin 128) :
    (V m c main_v4 : S64512x128.Idx → EReal) (ix2 R l)
      = colPad (m ((c : Thread nD τ).loc main_arg0)) 0 zeroE (R.val * 128 + l.val) := by
  -- the array as the term of the five operations that build it
  have e : (V m c main_v4 : S64512x128.Idx → EReal) = shapeCast S64512x128 (concatenate S8257536 0 [⟨S8000000, shapeCast S8000000 (extractStridedSlice S8000000x1 ![0, 0] (m ((c : Thread nD τ).loc main_arg0)) slices_S8000000x4_S8000000x1_0_0) shapeCasts_S8000000x1_S8000000⟩, ⟨S257536, broadcastInDim S257536 ![] bcast_S_S257536 (constant (F := Ideal) S_ .f32 0x00000000#32)⟩] concatenates_S8000000_S257536_S8257536_d0) shapeCasts_S8257536_S64512x128 := by
    show StableHlo.after hostOps0 (fun b => m (c, b)) (Proc.devRef .tc main_v4) = _
    after_results
    rfl
  rw [e]
  have hR : R.val < 64512 := R.isLt
  have hl : l.val < 128 := l.isLt
  have hn' : R.val * 128 + l.val < 8257536 := by omega
  -- rows of 128 lanes: row R, lane l is place R * 128 + l of the long column
  refine (shapeCast_apply _ shapeCasts_S8257536_S64512x128 (ix2 R l) (ix1 ⟨R.val * 128 + l.val, hn'⟩) ?_).trans ?_
  · rewrite [Shape.rowMajor_val_one, Shape.rowMajor_val_two]
    show R.val * 128 + l.val = R.val * 128 + l.val
    rfl
  by_cases hn : R.val * 128 + l.val < 8000000
  · -- a place among the boxes: the first piece of the concatenation, the column of the array of boxes
    refine (concatenate_pair_apply_left (0 : Fin S8257536.rank) _ _ concatenates_S8000000_S257536_S8257536_d0
      (ix1 ⟨R.val * 128 + l.val, hn'⟩) rfl (ix1 ⟨R.val * 128 + l.val, hn⟩) ?_).trans ?_
    · intro b
      match b with
      | ⟨0, _⟩ => rfl
    refine (shapeCast_apply _ shapeCasts_S8000000x1_S8000000 (ix1 ⟨R.val * 128 + l.val, hn⟩)
      (ix2 ⟨R.val * 128 + l.val, hn⟩ (0 : Fin 1)) ?_).trans ?_
    · rewrite [Shape.rowMajor_val_two, Shape.rowMajor_val_one]
      show (R.val * 128 + l.val) * 1 + 0 = R.val * 128 + l.val
      omega
    refine (extractStridedSlice_apply ![0, 0] _ slices_S8000000x4_S8000000x1_0_0 (ix2 ⟨R.val * 128 + l.val, hn⟩ (0 : Fin 1))
      (ix2 ⟨R.val * 128 + l.val, hn⟩ (0 : Fin 4)) ?_).trans ?_
    · intro a
      match a with
      | ⟨0, _⟩ => show R.val * 128 + l.val = 0 + (R.val * 128 + l.val); omega
      | ⟨1, _⟩ => show 0 = 0 + 0; rfl
    exact (colPad_lt _ 0 zeroE _ hn).symm
  · -- a place past the last box: the second piece, the constant
    have hge : 8000000 ≤ R.val * 128 + l.val := Nat.le_of_not_lt hn
    refine (concatenate_pair_apply_right (0 : Fin S8257536.rank) _ _ concatenates_S8000000_S257536_S8257536_d0
      (ix1 ⟨R.val * 128 + l.val, hn'⟩) rfl rfl (ix1 ⟨R.val * 128 + l.val - 8000000, by omega⟩) ?_ ?_).trans ?_
    · intro b hb
      match b, hb with
      | ⟨0, _⟩, hb => exact absurd rfl hb
    · show (R.val * 128 + l.val - 8000000) + 8000000 = R.val * 128 + l.val
      omega
    exact (show _ = zeroE from rfl).trans (colPad_ge _ 0 zeroE _ hge).symm

/-- Row R, lane l of the array the kernel reads as window 1: column 1 of the first array of boxes, continued by zero. -/
theorem col_v9 (c : Dev nD) (R : Fin 64512) (l : Fin 128) :
    (V m c main_v9 : S64512x128.Idx → EReal) (ix2 R l)
      = colPad (m ((c : Thread nD τ).loc main_arg0)) 1 zeroE (R.val * 128 + l.val) := by
  -- the array as the term of the five operations that build it
  have e : (V m c main_v9 : S64512x128.Idx → EReal) = shapeCast S64512x128 (concatenate S8257536 0 [⟨S8000000, shapeCast S8000000 (extractStridedSlice S8000000x1 ![0, 1] (m ((c : Thread nD τ).loc main_arg0)) slices_S8000000x4_S8000000x1_0_1) shapeCasts_S8000000x1_S8000000⟩, ⟨S257536, broadcastInDim S257536 ![] bcast_S_S257536 (constant (F := Ideal) S_ .f32 0x00000000#32)⟩] concatenates_S8000000_S257536_S8257536_d0) shapeCasts_S8257536_S64512x128 := by
    show StableHlo.after hostOps0 (fun b => m (c, b)) (Proc.devRef .tc main_v9) = _
    after_results
    rfl
  rw [e]
  have hR : R.val < 64512 := R.isLt
  have hl : l.val < 128 := l.isLt
  have hn' : R.val * 128 + l.val < 8257536 := by omega
  -- rows of 128 lanes: row R, lane l is place R * 128 + l of the long column
  refine (shapeCast_apply _ shapeCasts_S8257536_S64512x128 (ix2 R l) (ix1 ⟨R.val * 128 + l.val, hn'⟩) ?_).trans ?_
  · rewrite [Shape.rowMajor_val_one, Shape.rowMajor_val_two]
    show R.val * 128 + l.val = R.val * 128 + l.val
    rfl
  by_cases hn : R.val * 128 + l.val < 8000000
  · -- a place among the boxes: the first piece of the concatenation, the column of the array of boxes
    refine (concatenate_pair_apply_left (0 : Fin S8257536.rank) _ _ concatenates_S8000000_S257536_S8257536_d0
      (ix1 ⟨R.val * 128 + l.val, hn'⟩) rfl (ix1 ⟨R.val * 128 + l.val, hn⟩) ?_).trans ?_
    · intro b
      match b with
      | ⟨0, _⟩ => rfl
    refine (shapeCast_apply _ shapeCasts_S8000000x1_S8000000 (ix1 ⟨R.val * 128 + l.val, hn⟩)
      (ix2 ⟨R.val * 128 + l.val, hn⟩ (0 : Fin 1)) ?_).trans ?_
    · rewrite [Shape.rowMajor_val_two, Shape.rowMajor_val_one]
      show (R.val * 128 + l.val) * 1 + 0 = R.val * 128 + l.val
      omega
    refine (extractStridedSlice_apply ![0, 1] _ slices_S8000000x4_S8000000x1_0_1 (ix2 ⟨R.val * 128 + l.val, hn⟩ (0 : Fin 1))
      (ix2 ⟨R.val * 128 + l.val, hn⟩ (1 : Fin 4)) ?_).trans ?_
    · intro a
      match a with
      | ⟨0, _⟩ => show R.val * 128 + l.val = 0 + (R.val * 128 + l.val); omega
      | ⟨1, _⟩ => show 1 = 1 + 0; rfl
    exact (colPad_lt _ 1 zeroE _ hn).symm
  · -- a place past the last box: the second piece, the constant
    have hge : 8000000 ≤ R.val * 128 + l.val := Nat.le_of_not_lt hn
    refine (concatenate_pair_apply_right (0 : Fin S8257536.rank) _ _ concatenates_S8000000_S257536_S8257536_d0
      (ix1 ⟨R.val * 128 + l.val, hn'⟩) rfl rfl (ix1 ⟨R.val * 128 + l.val - 8000000, by omega⟩) ?_ ?_).trans ?_
    · intro b hb
      match b, hb with
      | ⟨0, _⟩, hb => exact absurd rfl hb
    · show (R.val * 128 + l.val - 8000000) + 8000000 = R.val * 128 + l.val
      omega
    exact (show _ = zeroE from rfl).trans (colPad_ge _ 1 zeroE _ hge).symm

/-- Row R, lane l of the array the kernel reads as window 2: column 2 of the first array of boxes, continued by one. -/
theorem col_v14 (c : Dev nD) (R : Fin 64512) (l : Fin 128) :
    (V m c main_v14 : S64512x128.Idx → EReal) (ix2 R l)
      = colPad (m ((c : Thread nD τ).loc main_arg0)) 2 oneE (R.val * 128 + l.val) := by
  -- the array as the term of the five operations that build it
  have e : (V m c main_v14 : S64512x128.Idx → EReal) = shapeCast S64512x128 (concatenate S8257536 0 [⟨S8000000, shapeCast S8000000 (extractStridedSlice S8000000x1 ![0, 2] (m ((c : Thread nD τ).loc main_arg0)) slices_S8000000x4_S8000000x1_0_2) shapeCasts_S8000000x1_S8000000⟩, ⟨S257536, broadcastInDim S257536 ![] bcast_S_S257536 (constant (F := Ideal) S_ .f32 0x3F800000#32)⟩] concatenates_S8000000_S257536_S8257536_d0) shapeCasts_S8257536_S64512x128 := by
    show StableHlo.after hostOps0 (fun b => m (c, b)) (Proc.devRef .tc main_v14) = _
    after_results
    rfl
  rw [e]
  have hR : R.val < 64512 := R.isLt
  have hl : l.val < 128 := l.isLt
  have hn' : R.val * 128 + l.val < 8257536 := by omega
  -- rows of 128 lanes: row R, lane l is place R * 128 + l of the long column
  refine (shapeCast_apply _ shapeCasts_S8257536_S64512x128 (ix2 R l) (ix1 ⟨R.val * 128 + l.val, hn'⟩) ?_).trans ?_
  · rewrite [Shape.rowMajor_val_one, Shape.rowMajor_val_two]
    show R.val * 128 + l.val = R.val * 128 + l.val
    rfl
  by_cases hn : R.val * 128 + l.val < 8000000
  · -- a place among the boxes: the first piece of the concatenation, the column of the array of boxes
    refine (concatenate_pair_apply_left (0 : Fin S8257536.rank) _ _ concatenates_S8000000_S257536_S8257536_d0
      (ix1 ⟨R.val * 128 + l.val, hn'⟩) rfl (ix1 ⟨R.val * 128 + l.val, hn⟩) ?_).trans ?_
    · intro b
      match b with
      | ⟨0, _⟩ => rfl
    refine (shapeCast_apply _ shapeCasts_S8000000x1_S8000000 (ix1 ⟨R.val * 128 + l.val, hn⟩)
      (ix2 ⟨R.val * 128 + l.val, hn⟩ (0 : Fin 1)) ?_).trans ?_
    · rewrite [Shape.rowMajor_val_two, Shape.rowMajor_val_one]
      show (R.val * 128 + l.val) * 1 + 0 = R.val * 128 + l.val
      omega
    refine (extractStridedSlice_apply ![0, 2] _ slices_S8000000x4_S8000000x1_0_2 (ix2 ⟨R.val * 128 + l.val, hn⟩ (0 : Fin 1))
      (ix2 ⟨R.val * 128 + l.val, hn⟩ (2 : Fin 4)) ?_).trans ?_
    · intro a
      match a with
      | ⟨0, _⟩ => show R.val * 128 + l.val = 0 + (R.val * 128 + l.val); omega
      | ⟨1, _⟩ => show 2 = 2 + 0; rfl
    exact (colPad_lt _ 2 oneE _ hn).symm
  · -- a place past the last box: the second piece, the constant
    have hge : 8000000 ≤ R.val * 128 + l.val := Nat.le_of_not_lt hn
    refine (concatenate_pair_apply_right (0 : Fin S8257536.rank) _ _ concatenates_S8000000_S257536_S8257536_d0
      (ix1 ⟨R.val * 128 + l.val, hn'⟩) rfl rfl (ix1 ⟨R.val * 128 + l.val - 8000000, by omega⟩) ?_ ?_).trans ?_
    · intro b hb
      match b, hb with
      | ⟨0, _⟩, hb => exact absurd rfl hb
    · show (R.val * 128 + l.val - 8000000) + 8000000 = R.val * 128 + l.val
      omega
    exact (show _ = oneE from rfl).trans (colPad_ge _ 2 oneE _ hge).symm

/-- Row R, lane l of the array the kernel reads as window 3: column 3 of the first array of boxes, continued by one. -/
theorem col_v19 (c : Dev nD) (R : Fin 64512) (l : Fin 128) :
    (V m c main_v19 : S64512x128.Idx → EReal) (ix2 R l)
      = colPad (m ((c : Thread nD τ).loc main_arg0)) 3 oneE (R.val * 128 + l.val) := by
  -- the array as the term of the five operations that build it
  have e : (V m c main_v19 : S64512x128.Idx → EReal) = shapeCast S64512x128 (concatenate S8257536 0 [⟨S8000000, shapeCast S8000000 (extractStridedSlice S8000000x1 ![0, 3] (m ((c : Thread nD τ).loc main_arg0)) slices_S8000000x4_S8000000x1_0_3) shapeCasts_S8000000x1_S8000000⟩, ⟨S257536, broadcastInDim S257536 ![] bcast_S_S257536 (constant (F := Ideal) S_ .f32 0x3F800000#32)⟩] concatenates_S8000000_S257536_S8257536_d0) shapeCasts_S8257536_S64512x128 := by
    show StableHlo.after hostOps0 (fun b => m (c, b)) (Proc.devRef .tc main_v19) = _
    after_results
    rfl
  rw [e]
  have hR : R.val < 64512 := R.isLt
  have hl : l.val < 128 := l.isLt
  have hn' : R.val * 128 + l.val < 8257536 := by omega
  -- rows of 128 lanes: row R, lane l is place R * 128 + l of the long column
  refine (shapeCast_apply _ shapeCasts_S8257536_S64512x128 (ix2 R l) (ix1 ⟨R.val * 128 + l.val, hn'⟩) ?_).trans ?_
  · rewrite [Shape.rowMajor_val_one, Shape.rowMajor_val_two]
    show R.val * 128 + l.val = R.val * 128 + l.val
    rfl
  by_cases hn : R.val * 128 + l.val < 8000000
  · -- a place among the boxes: the first piece of the concatenation, the column of the array of boxes
    refine (concatenate_pair_apply_left (0 : Fin S8257536.rank) _ _ concatenates_S8000000_S257536_S8257536_d0
      (ix1 ⟨R.val * 128 + l.val, hn'⟩) rfl (ix1 ⟨R.val * 128 + l.val, hn⟩) ?_).trans ?_
    · intro b
      match b with
      | ⟨0, _⟩ => rfl
    refine (shapeCast_apply _ shapeCasts_S8000000x1_S8000000 (ix1 ⟨R.val * 128 + l.val, hn⟩)
      (ix2 ⟨R.val * 128 + l.val, hn⟩ (0 : Fin 1)) ?_).trans ?_
    · rewrite [Shape.rowMajor_val_two, Shape.rowMajor_val_one]
      show (R.val * 128 + l.val) * 1 + 0 = R.val * 128 + l.val
      omega
    refine (extractStridedSlice_apply ![0, 3] _ slices_S8000000x4_S8000000x1_0_3 (ix2 ⟨R.val * 128 + l.val, hn⟩ (0 : Fin 1))
      (ix2 ⟨R.val * 128 + l.val, hn⟩ (3 : Fin 4)) ?_).trans ?_
    · intro a
      match a with
      | ⟨0, _⟩ => show R.val * 128 + l.val = 0 + (R.val * 128 + l.val); omega
      | ⟨1, _⟩ => show 3 = 3 + 0; rfl
    exact (colPad_lt _ 3 oneE _ hn).symm
  · -- a place past the last box: the second piece, the constant
    have hge : 8000000 ≤ R.val * 128 + l.val := Nat.le_of_not_lt hn
    refine (concatenate_pair_apply_right (0 : Fin S8257536.rank) _ _ concatenates_S8000000_S257536_S8257536_d0
      (ix1 ⟨R.val * 128 + l.val, hn'⟩) rfl rfl (ix1 ⟨R.val * 128 + l.val - 8000000, by omega⟩) ?_ ?_).trans ?_
    · intro b hb
      match b, hb with
      | ⟨0, _⟩, hb => exact absurd rfl hb
    · show (R.val * 128 + l.val - 8000000) + 8000000 = R.val * 128 + l.val
      omega
    exact (show _ = oneE from rfl).trans (colPad_ge _ 3 oneE _ hge).symm

/-- Row R, lane l of the array the kernel reads as window 4: column 0 of the second array of boxes, continued by zero. -/
theorem col_v24 (c : Dev nD) (R : Fin 64512) (l : Fin 128) :
    (V m c main_v24 : S64512x128.Idx → EReal) (ix2 R l)
      = colPad (m ((c : Thread nD τ).loc main_arg1)) 0 zeroE (R.val * 128 + l.val) := by
  -- the array as the term of the five operations that build it
  have e : (V m c main_v24 : S64512x128.Idx → EReal) = shapeCast S64512x128 (concatenate S8257536 0 [⟨S8000000, shapeCast S8000000 (extractStridedSlice S8000000x1 ![0, 0] (m ((c : Thread nD τ).loc main_arg1)) slices_S8000000x4_S8000000x1_0_0) shapeCasts_S8000000x1_S8000000⟩, ⟨S257536, broadcastInDim S257536 ![] bcast_S_S257536 (constant (F := Ideal) S_ .f32 0x00000000#32)⟩] concatenates_S8000000_S257536_S8257536_d0) shapeCasts_S8257536_S64512x128 := by
    show StableHlo.after hostOps0 (fun b => m (c, b)) (Proc.devRef .tc main_v24) = _
    after_results
    rfl
  rw [e]
  have hR : R.val < 64512 := R.isLt
  have hl : l.val < 128 := l.isLt
  have hn' : R.val * 128 + l.val < 8257536 := by omega
  -- rows of 128 lanes: row R, lane l is place R * 128 + l of the long column
  refine (shapeCast_apply _ shapeCasts_S8257536_S64512x128 (ix2 R l) (ix1 ⟨R.val * 128 + l.val, hn'⟩) ?_).trans ?_
  · rewrite [Shape.rowMajor_val_one, Shape.rowMajor_val_two]
    show R.val * 128 + l.val = R.val * 128 + l.val
    rfl
  by_cases hn : R.val * 128 + l.val < 8000000
  · -- a place among the boxes: the first piece of the concatenation, the column of the array of boxes
    refine (concatenate_pair_apply_left (0 : Fin S8257536.rank) _ _ concatenates_S8000000_S257536_S8257536_d0
      (ix1 ⟨R.val * 128 + l.val, hn'⟩) rfl (ix1 ⟨R.val * 128 + l.val, hn⟩) ?_).trans ?_
    · intro b
      match b with
      | ⟨0, _⟩ => rfl
    refine (shapeCast_apply _ shapeCasts_S8000000x1_S8000000 (ix1 ⟨R.val * 128 + l.val, hn⟩)
      (ix2 ⟨R.val * 128 + l.val, hn⟩ (0 : Fin 1)) ?_).trans ?_
    · rewrite [Shape.rowMajor_val_two, Shape.rowMajor_val_one]
      show (R.val * 128 + l.val) * 1 + 0 = R.val * 128 + l.val
      omega
    refine (extractStridedSlice_apply ![0, 0] _ slices_S8000000x4_S8000000x1_0_0 (ix2 ⟨R.val * 128 + l.val, hn⟩ (0 : Fin 1))
      (ix2 ⟨R.val * 128 + l.val, hn⟩ (0 : Fin 4)) ?_).trans ?_
    · intro a
      match a with
      | ⟨0, _⟩ => show R.val * 128 + l.val = 0 + (R.val * 128 + l.val); omega
      | ⟨1, _⟩ => show 0 = 0 + 0; rfl
    exact (colPad_lt _ 0 zeroE _ hn).symm
  · -- a place past the last box: the second piece, the constant
    have hge : 8000000 ≤ R.val * 128 + l.val := Nat.le_of_not_lt hn
    refine (concatenate_pair_apply_right (0 : Fin S8257536.rank) _ _ concatenates_S8000000_S257536_S8257536_d0
      (ix1 ⟨R.val * 128 + l.val, hn'⟩) rfl rfl (ix1 ⟨R.val * 128 + l.val - 8000000, by omega⟩) ?_ ?_).trans ?_
    · intro b hb
      match b, hb with
      | ⟨0, _⟩, hb => exact absurd rfl hb
    · show (R.val * 128 + l.val - 8000000) + 8000000 = R.val * 128 + l.val
      omega
    exact (show _ = zeroE from rfl).trans (colPad_ge _ 0 zeroE _ hge).symm

/-- Row R, lane l of the array the kernel reads as window 5: column 1 of the second array of boxes, continued by zero. -/
theorem col_v29 (c : Dev nD) (R : Fin 64512) (l : Fin 128) :
    (V m c main_v29 : S64512x128.Idx → EReal) (ix2 R l)
      = colPad (m ((c : Thread nD τ).loc main_arg1)) 1 zeroE (R.val * 128 + l.val) := by
  -- the array as the term of the five operations that build it
  have e : (V m c main_v29 : S64512x128.Idx → EReal) = shapeCast S64512x128 (concatenate S8257536 0 [⟨S8000000, shapeCast S8000000 (extractStridedSlice S8000000x1 ![0, 1] (m ((c : Thread nD τ).loc main_arg1)) slices_S8000000x4_S8000000x1_0_1) shapeCasts_S8000000x1_S8000000⟩, ⟨S257536, broadcastInDim S257536 ![] bcast_S_S257536 (constant (F := Ideal) S_ .f32 0x00000000#32)⟩] concatenates_S8000000_S257536_S8257536_d0) shapeCasts_S8257536_S64512x128 := by
    show StableHlo.after hostOps0 (fun b => m (c, b)) (Proc.devRef .tc main_v29) = _
    after_results
    rfl
  rw [e]
  have hR : R.val < 64512 := R.isLt
  have hl : l.val < 128 := l.isLt
  have hn' : R.val * 128 + l.val < 8257536 := by omega
  -- rows of 128 lanes: row R, lane l is place R * 128 + l of the long column
  refine (shapeCast_apply _ shapeCasts_S8257536_S64512x128 (ix2 R l) (ix1 ⟨R.val * 128 + l.val, hn'⟩) ?_).trans ?_
  · rewrite [Shape.rowMajor_val_one, Shape.rowMajor_val_two]
    show R.val * 128 + l.val = R.val * 128 + l.val
    rfl
  by_cases hn : R.val * 128 + l.val < 8000000
  · -- a place among the boxes: the first piece of the concatenation, the column of the array of boxes
    refine (concatenate_pair_apply_left (0 : Fin S8257536.rank) _ _ concatenates_S8000000_S257536_S8257536_d0
      (ix1 ⟨R.val * 128 + l.val, hn'⟩) rfl (ix1 ⟨R.val * 128 + l.val, hn⟩) ?_).trans ?_
    · intro b
      match b with
      | ⟨0, _⟩ => rfl
    refine (shapeCast_apply _ shapeCasts_S8000000x1_S8000000 (ix1 ⟨R.val * 128 + l.val, hn⟩)
      (ix2 ⟨R.val * 128 + l.val, hn⟩ (0 : Fin 1)) ?_).trans ?_
    · rewrite [Shape.rowMajor_val_two, Shape.rowMajor_val_one]
      show (R.val * 128 + l.val) * 1 + 0 = R.val * 128 + l.val
      omega
    refine (extractStridedSlice_apply ![0, 1] _ slices_S8000000x4_S8000000x1_0_1 (ix2 ⟨R.val * 128 + l.val, hn⟩ (0 : Fin 1))
      (ix2 ⟨R.val * 128 + l.val, hn⟩ (1 : Fin 4)) ?_).trans ?_
    · intro a
      match a with
      | ⟨0, _⟩ => show R.val * 128 + l.val = 0 + (R.val * 128 + l.val); omega
      | ⟨1, _⟩ => show 1 = 1 + 0; rfl
    exact (colPad_lt _ 1 zeroE _ hn).symm
  · -- a place past the last box: the second piece, the constant
    have hge : 8000000 ≤ R.val * 128 + l.val := Nat.le_of_not_lt hn
    refine (concatenate_pair_apply_right (0 : Fin S8257536.rank) _ _ concatenates_S8000000_S257536_S8257536_d0
      (ix1 ⟨R.val * 128 + l.val, hn'⟩) rfl rfl (ix1 ⟨R.val * 128 + l.val - 8000000, by omega⟩) ?_ ?_).trans ?_
    · intro b hb
      match b, hb with
      | ⟨0, _⟩, hb => exact absurd rfl hb
    · show (R.val * 128 + l.val - 8000000) + 8000000 = R.val * 128 + l.val
      omega
    exact (show _ = zeroE from rfl).trans (colPad_ge _ 1 zeroE _ hge).symm

/-- Row R, lane l of the array the kernel reads as window 6: column 2 of the second array of boxes, continued by one. -/
theorem col_v34 (c : Dev nD) (R : Fin 64512) (l : Fin 128) :
    (V m c main_v34 : S64512x128.Idx → EReal) (ix2 R l)
      = colPad (m ((c : Thread nD τ).loc main_arg1)) 2 oneE (R.val * 128 + l.val) := by
  -- the array as the term of the five operations that build it
  have e : (V m c main_v34 : S64512x128.Idx → EReal) = shapeCast S64512x128 (concatenate S8257536 0 [⟨S8000000, shapeCast S8000000 (extractStridedSlice S8000000x1 ![0, 2] (m ((c : Thread nD τ).loc main_arg1)) slices_S8000000x4_S8000000x1_0_2) shapeCasts_S8000000x1_S8000000⟩, ⟨S257536, broadcastInDim S257536 ![] bcast_S_S257536 (constant (F := Ideal) S_ .f32 0x3F800000#32)⟩] concatenates_S8000000_S257536_S8257536_d0) shapeCasts_S8257536_S64512x128 := by
    show StableHlo.after hostOps0 (fun b => m (c, b)) (Proc.devRef .tc main_v34) = _
    after_results
    rfl
  rw [e]
  have hR : R.val < 64512 := R.isLt
  have hl : l.val < 128 := l.isLt
  have hn' : R.val * 128 + l.val < 8257536 := by omega
  -- rows of 128 lanes: row R, lane l is place R * 128 + l of the long column
  refine (shapeCast_apply _ shapeCasts_S8257536_S64512x128 (ix2 R l) (ix1 ⟨R.val * 128 + l.val, hn'⟩) ?_).trans ?_
  · rewrite [Shape.rowMajor_val_one, Shape.rowMajor_val_two]
    show R.val * 128 + l.val = R.val * 128 + l.val
    rfl
  by_cases hn : R.val * 128 + l.val < 8000000
  · -- a place among the boxes: the first piece of the concatenation, the column of the array of boxes
    refine (concatenate_pair_apply_left (0 : Fin S8257536.rank) _ _ concatenates_S8000000_S257536_S8257536_d0
      (ix1 ⟨R.val * 128 + l.val, hn'⟩) rfl (ix1 ⟨R.val * 128 + l.val, hn⟩) ?_).trans ?_
    · intro b
      match b with
      | ⟨0, _⟩ => rfl
    refine (shapeCast_apply _ shapeCasts_S8000000x1_S8000000 (ix1 ⟨R.val * 128 + l.val, hn⟩)
      (ix2 ⟨R.val * 128 + l.val, hn⟩ (0 : Fin 1)) ?_).trans ?_
    · rewrite [Shape.rowMajor_val_two, Shape.rowMajor_val_one]
      show (R.val * 128 + l.val) * 1 + 0 = R.val * 128 + l.val
      omega
    refine (extractStridedSlice_apply ![0, 2] _ slices_S8000000x4_S8000000x1_0_2 (ix2 ⟨R.val * 128 + l.val, hn⟩ (0 : Fin 1))
      (ix2 ⟨R.val * 128 + l.val, hn⟩ (2 : Fin 4)) ?_).trans ?_
    · intro a
      match a with
      | ⟨0, _⟩ => show R.val * 128 + l.val = 0 + (R.val * 128 + l.val); omega
      | ⟨1, _⟩ => show 2 = 2 + 0; rfl
    exact (colPad_lt _ 2 oneE _ hn).symm
  · -- a place past the last box: the second piece, the constant
    have hge : 8000000 ≤ R.val * 128 + l.val := Nat.le_of_not_lt hn
    refine (concatenate_pair_apply_right (0 : Fin S8257536.rank) _ _ concatenates_S8000000_S257536_S8257536_d0
      (ix1 ⟨R.val * 128 + l.val, hn'⟩) rfl rfl (ix1 ⟨R.val * 128 + l.val - 8000000, by omega⟩) ?_ ?_).trans ?_
    · intro b hb
      match b, hb with
      | ⟨0, _⟩, hb => exact absurd rfl hb
    · show (R.val * 128 + l.val - 8000000) + 8000000 = R.val * 128 + l.val
      omega
    exact (show _ = oneE from rfl).trans (colPad_ge _ 2 oneE _ hge).symm

/-- Row R, lane l of the array the kernel reads as window 7: column 3 of the second array of boxes, continued by one. -/
theorem col_v39 (c : Dev nD) (R : Fin 64512) (l : Fin 128) :
    (V m c main_v39 : S64512x128.Idx → EReal) (ix2 R l)
      = colPad (m ((c : Thread nD τ).loc main_arg1)) 3 oneE (R.val * 128 + l.val) := by
  -- the array as the term of the five operations that build it
  have e : (V m c main_v39 : S64512x128.Idx → EReal) = shapeCast S64512x128 (concatenate S8257536 0 [⟨S8000000, shapeCast S8000000 (extractStridedSlice S8000000x1 ![0, 3] (m ((c : Thread nD τ).loc main_arg1)) slices_S8000000x4_S8000000x1_0_3) shapeCasts_S8000000x1_S8000000⟩, ⟨S257536, broadcastInDim S257536 ![] bcast_S_S257536 (constant (F := Ideal) S_ .f32 0x3F800000#32)⟩] concatenates_S8000000_S257536_S8257536_d0) shapeCasts_S8257536_S64512x128 := by
    show StableHlo.after hostOps0 (fun b => m (c, b)) (Proc.devRef .tc main_v39) = _
    after_results
    rfl
  rw [e]
  have hR : R.val < 64512 := R.isLt
  have hl : l.val < 128 := l.isLt
  have hn' : R.val * 128 + l.val < 8257536 := by omega
  -- rows of 128 lanes: row R, lane l is place R * 128 + l of the long column
  refine (shapeCast_apply _ shapeCasts_S8257536_S64512x128 (ix2 R l) (ix1 ⟨R.val * 128 + l.val, hn'⟩) ?_).trans ?_
  · rewrite [Shape.rowMajor_val_one, Shape.rowMajor_val_two]
    show R.val * 128 + l.val = R.val * 128 + l.val
    rfl
  by_cases hn : R.val * 128 + l.val < 8000000
  · -- a place among the boxes: the first piece of the concatenation, the column of the array of boxes
    refine (concatenate_pair_apply_left (0 : Fin S8257536.rank) _ _ concatenates_S8000000_S257536_S8257536_d0
      (ix1 ⟨R.val * 128 + l.val, hn'⟩) rfl (ix1 ⟨R.val * 128 + l.val, hn⟩) ?_).trans ?_
    · intro b
      match b with
      | ⟨0, _⟩ => rfl
    refine (shapeCast_apply _ shapeCasts_S8000000x1_S8000000 (ix1 ⟨R.val * 128 + l.val, hn⟩)
      (ix2 ⟨R.val * 128 + l.val, hn⟩ (0 : Fin 1)) ?_).trans ?_
    · rewrite [Shape.rowMajor_val_two, Shape.rowMajor_val_one]
      show (R.val * 128 + l.val) * 1 + 0 = R.val * 128 + l.val
      omega
    refine (extractStridedSlice_apply ![0, 3] _ slices_S8000000x4_S8000000x1_0_3 (ix2 ⟨R.val * 128 + l.val, hn⟩ (0 : Fin 1))
      (ix2 ⟨R.val * 128 + l.val, hn⟩ (3 : Fin 4)) ?_).trans ?_
    · intro a
      match a with
      | ⟨0, _⟩ => show R.val * 128 + l.val = 0 + (R.val * 128 + l.val); omega
      | ⟨1, _⟩ => show 3 = 3 + 0; rfl
    exact (colPad_lt _ 3 oneE _ hn).symm
  · -- a place past the last box: the second piece, the constant
    have hge : 8000000 ≤ R.val * 128 + l.val := Nat.le_of_not_lt hn
    refine (concatenate_pair_apply_right (0 : Fin S8257536.rank) _ _ concatenates_S8000000_S257536_S8257536_d0
      (ix1 ⟨R.val * 128 + l.val, hn'⟩) rfl rfl (ix1 ⟨R.val * 128 + l.val - 8000000, by omega⟩) ?_ ?_).trans ?_
    · intro b hb
      match b, hb with
      | ⟨0, _⟩, hb => exact absurd rfl hb
    · show (R.val * 128 + l.val - 8000000) + 8000000 = R.val * 128 + l.val
      omega
    exact (show _ = oneE from rfl).trans (colPad_ge _ 3 oneE _ hge).symm

end Cert.Giou.Cols

end
-- ==== Proof.Blocks.lean ====
/-
  The eight input blocks of a grid point.

  Point t of the 2 x 21 grid reads, of each of the eight column arrays, the block of rows t * 1536 ... t * 1536 + 1535
  (the index map sends the point (c, i) to block row c * 21 + i, which is the point's own number). So row r, lane l of
  the block is place (t * 1536 + r) * 128 + l of the continued column.
-/
import proofs.«427724_j3788161155127_3_alg».proof.Proof.Cols

noncomputable section

namespace Cert.Giou.Blocks

open Cert.KernelIdeal Cert.KernelIdeal.Gen Idealize.ShloMosaic Idealize.ShloMosaic.TcCoe Idealize.SL.Sem
open Idealize.ShloMosaic.ValueIdx Cert.Giou

variable (m : (ℓ : Loc nD τ sig) → Buf (Elt Ideal) ℓ)

/-- Window 0's block at point t. -/
abbrev xblk0 (c : Dev nD) (t : Fin cfg0.N) : Vec Ideal S1536x128 .f32 := iblk m c 0 t

/-- Window 0's index map: block row t, block column 0. -/
theorem idx_facts0 : ∀ t : Fin cfg0.N, win0_0.index t 0 = t.val ∧ win0_0.index t 1 = 0 :=
  (by decide +kernel : ∀ t : Fin grid0.N, win0_0.index t 0 = t.val ∧ win0_0.index t 1 = 0)

/-- Row r, lane l of window 0's block at point t: column 0 of the first array of boxes at place (t * 1536 + r) * 128 + l. -/
theorem xblk0_apply (c : Dev nD) (t : Fin cfg0.N) (r : Fin 1536) (l : Fin 128) :
    xblk0 m c t (ix2 r l)
      = colPad (m ((c : Thread nD τ).loc main_arg0)) 0 zeroE ((t.val * 1536 + r.val) * 128 + l.val) := by
  have hN : t.val < 42 := lt_of_lt_of_eq t.isLt (show cfg0.N = 42 from N_0)
  have hR : t.val * 1536 + r.val < 64512 := by have := r.isLt; omega
  rw [← Cols.col_v4 m c ⟨t.val * 1536 + r.val, hR⟩ l]
  show iblk m c 0 t (ix2 r l) = _
  unfold iblk
  rw [View.read_apply]
  show V m c main_v4 _ = V m c main_v4 _
  congr 1
  funext a
  apply Fin.ext
  match a with
  | ⟨0, _⟩ =>
    show win0_0.index t 0 * 1536 + 1 * r.val = t.val * 1536 + r.val
    rw [(idx_facts0 t).1]; omega
  | ⟨1, _⟩ =>
    show win0_0.index t 1 * 128 + 1 * l.val = l.val
    rw [(idx_facts0 t).2]; omega

/-- Window 1's block at point t. -/
abbrev xblk1 (c : Dev nD) (t : Fin cfg0.N) : Vec Ideal S1536x128 .f32 := iblk m c 1 t

/-- Window 1's index map: block row t, block column 0. -/
theorem idx_facts1 : ∀ t : Fin cfg0.N, win0_1.index t 0 = t.val ∧ win0_1.index t 1 = 0 :=
  (by decide +kernel : ∀ t : Fin grid0.N, win0_1.index t 0 = t.val ∧ win0_1.index t 1 = 0)

/-- Row r, lane l of window 1's block at point t: column 1 of the first array of boxes at place (t * 1536 + r) * 128 + l. -/
theorem xblk1_apply (c : Dev nD) (t : Fin cfg0.N) (r : Fin 1536) (l : Fin 128) :
    xblk1 m c t (ix2 r l)
      = colPad (m ((c : Thread nD τ).loc main_arg0)) 1 zeroE ((t.val * 1536 + r.val) * 128 + l.val) := by
  have hN : t.val < 42 := lt_of_lt_of_eq t.isLt (show cfg0.N = 42 from N_0)
  have hR : t.val * 1536 + r.val < 64512 := by have := r.isLt; omega
  rw [← Cols.col_v9 m c ⟨t.val * 1536 + r.val, hR⟩ l]
  show iblk m c 1 t (ix2 r l) = _
  unfold iblk
  rw [View.read_apply]
  show V m c main_v9 _ = V m c main_v9 _
  congr 1
  funext a
  apply Fin.ext
  match a with
  | ⟨0, _⟩ =>
    show win0_1.index t 0 * 1536 + 1 * r.val = t.val * 1536 + r.val
    rw [(idx_facts1 t).1]; omega
  | ⟨1, _⟩ =>
    show win0_1.index t 1 * 128 + 1 * l.val = l.val
    rw [(idx_facts1 t).2]; omega

/-- Window 2's block at point t. -/
abbrev xblk2 (c : Dev nD) (t : Fin cfg0.N) : Vec Ideal S1536x128 .f32 := iblk m c 2 t

/-- Window 2's index map: block row t, block column 0. -/
theorem idx_facts2 : ∀ t : Fin cfg0.N, win0_2.index t 0 = t.val ∧ win0_2.index t 1 = 0 :=
  (by decide +kernel : ∀ t : Fin grid0.N, win0_2.index t 0 = t.val ∧ win0_2.index t 1 = 0)

/-- Row r, lane l of window 2's block at point t: column 2 of the first array of boxes at place (t * 1536 + r) * 128 + l. -/
theorem xblk2_apply (c : Dev nD) (t : Fin cfg0.N) (r : Fin 1536) (l : Fin 128) :
    xblk2 m c t (ix2 r l)
      = colPad (m ((c : Thread nD τ).loc main_arg0)) 2 oneE ((t.val * 1536 + r.val) * 128 + l.val) := by
  have hN : t.val < 42 := lt_of_lt_of_eq t.isLt (show cfg0.N = 42 from N_0)
  have hR : t.val * 1536 + r.val < 64512 := by have := r.isLt; omega
  rw [← Cols.col_v14 m c ⟨t.val * 1536 + r.val, hR⟩ l]
  show iblk m c 2 t (ix2 r l) = _
  unfold iblk
  rw [View.read_apply]
  show V m c main_v14 _ = V m c main_v14 _
  congr 1
  funext a
  apply Fin.ext
  match a with
  | ⟨0, _⟩ =>
    show win0_2.index t 0 * 1536 + 1 * r.val = t.val * 1536 + r.val
    rw [(idx_facts2 t).1]; omega
  | ⟨1, _⟩ =>
    show win0_2.index t 1 * 128 + 1 * l.val = l.val
    rw [(idx_facts2 t).2]; omega

/-- Window 3's block at point t. -/
abbrev xblk3 (c : Dev nD) (t : Fin cfg0.N) : Vec Ideal S1536x128 .f32 := iblk m c 3 t

/-- Window 3's index map: block row t, block column 0. -/
theorem idx_facts3 : ∀ t : Fin cfg0.N, win0_3.index t 0 = t.val ∧ win0_3.index t 1 = 0 :=
  (by decide +kernel : ∀ t : Fin grid0.N, win0_3.index t 0 = t.val ∧ win0_3.index t 1 = 0)

/-- Row r, lane l of window 3's block at point t: column 3 of the first array of boxes at place (t * 1536 + r) * 128 + l. -/
theorem xblk3_apply (c : Dev nD) (t : Fin cfg0.N) (r : Fin 1536) (l : Fin 128) :
    xblk3 m c t (ix2 r l)
      = colPad (m ((c : Thread nD τ).loc main_arg0)) 3 oneE ((t.val * 1536 + r.val) * 128 + l.val) := by
  have hN : t.val < 42 := lt_of_lt_of_eq t.isLt (show cfg0.N = 42 from N_0)
  have hR : t.val * 1536 + r.val < 64512 := by have := r.isLt; omega
  rw [← Cols.col_v19 m c ⟨t.val * 1536 + r.val, hR⟩ l]
  show iblk m c 3 t (ix2 r l) = _
  unfold iblk
  rw [View.read_apply]
  show V m c main_v19 _ = V m c main_v19 _
  congr 1
  funext a
  apply Fin.ext
  match a with
  | ⟨0, _⟩ =>
    show win0_3.index t 0 * 1536 + 1 * r.val = t.val * 1536 + r.val
    rw [(idx_facts3 t).1]; omega
  | ⟨1, _⟩ =>
    show win0_3.index t 1 * 128 + 1 * l.val = l.val
    rw [(idx_facts3 t).2]; omega

/-- Window 4's block at point t. -/
abbrev xblk4 (c : Dev nD) (t : Fin cfg0.N) : Vec Ideal S1536x128 .f32 := iblk m c 4 t

/-- Window 4's index map: block row t, block column 0. -/
theorem idx_facts4 : ∀ t : Fin cfg0.N, win0_4.index t 0 = t.val ∧ win0_4.index t 1 = 0 :=
  (by decide +kernel : ∀ t : Fin grid0.N, win0_4.index t 0 = t.val ∧ win0_4.index t 1 = 0)

/-- Row r, lane l of window 4's block at point t: column 0 of the second array of boxes at place (t * 1536 + r) * 128 + l. -/
theorem xblk4_apply (c : Dev nD) (t : Fin cfg0.N) (r : Fin 1536) (l : Fin 128) :
    xblk4 m c t (ix2 r l)
      = colPad (m ((c : Thread nD τ).loc main_arg1)) 0 zeroE ((t.val * 1536 + r.val) * 128 + l.val) := by
  have hN : t.val < 42 := lt_of_lt_of_eq t.isLt (show cfg0.N = 42 from N_0)
  have hR : t.val * 1536 + r.val < 64512 := by have := r.isLt; omega
  rw [← Cols.col_v24 m c ⟨t.val * 1536 + r.val, hR⟩ l]
  show iblk m c 4 t (ix2 r l) = _
  unfold iblk
  rw [View.read_apply]
  show V m c main_v24 _ = V m c main_v24 _
  congr 1
  funext a
  apply Fin.ext
  match a with
  | ⟨0, _⟩ =>
    show win0_4.index t 0 * 1536 + 1 * r.val = t.val * 1536 + r.val
    rw [(idx_facts4 t).1]; omega
  | ⟨1, _⟩ =>
    show win0_4.index t 1 * 128 + 1 * l.val = l.val
    rw [(idx_facts4 t).2]; omega

/-- Window 5's block at point t. -/
abbrev xblk5 (c : Dev nD) (t : Fin cfg0.N) : Vec Ideal S1536x128 .f32 := iblk m c 5 t

/-- Window 5's index map: block row t, block column 0. -/
theorem idx_facts5 : ∀ t : Fin cfg0.N, win0_5.index t 0 = t.val ∧ win0_5.index t 1 = 0 :=
  (by decide +kernel : ∀ t : Fin grid0.N, win0_5.index t 0 = t.val ∧ win0_5.index t 1 = 0)

/-- Row r, lane l of window 5's block at point t: column 1 of the second array of boxes at place (t * 1536 + r) * 128 + l. -/
theorem xblk5_apply (c : Dev nD) (t : Fin cfg0.N) (r : Fin 1536) (l : Fin 128) :
    xblk5 m c t (ix2 r l)
      = colPad (m ((c : Thread nD τ).loc main_arg1)) 1 zeroE ((t.val * 1536 + r.val) * 128 + l.val) := by
  have hN : t.val < 42 := lt_of_lt_of_eq t.isLt (show cfg0.N = 42 from N_0)
  have hR : t.val * 1536 + r.val < 64512 := by have := r.isLt; omega
  rw [← Cols.col_v29 m c ⟨t.val * 1536 + r.val, hR⟩ l]
  show iblk m c 5 t (ix2 r l) = _
  unfold iblk
  rw [View.read_apply]
  show V m c main_v29 _ = V m c main_v29 _
  congr 1
  funext a
  apply Fin.ext
  match a with
  | ⟨0, _⟩ =>
    show win0_5.index t 0 * 1536 + 1 * r.val = t.val * 1536 + r.val
    rw [(idx_facts5 t).1]; omega
  | ⟨1, _⟩ =>
    show win0_5.index t 1 * 128 + 1 * l.val = l.val
    rw [(idx_facts5 t).2]; omega

/-- Window 6's block at point t. -/
abbrev xblk6 (c : Dev nD) (t : Fin cfg0.N) : Vec Ideal S1536x128 .f32 := iblk m c 6 t

/-- Window 6's index map: block row t, block column 0. -/
theorem idx_facts6 : ∀ t : Fin cfg0.N, win0_6.index t 0 = t.val ∧ win0_6.index t 1 = 0 :=
  (by decide +kernel : ∀ t : Fin grid0.N, win0_6.index t 0 = t.val ∧ win0_6.index t 1 = 0)

/-- Row r, lane l of window 6's block at point t: column 2 of the second array of boxes at place (t * 1536 + r) * 128 + l. -/
theorem xblk6_apply (c : Dev nD) (t : Fin cfg0.N) (r : Fin 1536) (l : Fin 128) :
    xblk6 m c t (ix2 r l)
      = colPad (m ((c : Thread nD τ).loc main_arg1)) 2 oneE ((t.val * 1536 + r.val) * 128 + l.val) := by
  have hN : t.val < 42 := lt_of_lt_of_eq t.isLt (show cfg0.N = 42 from N_0)
  have hR : t.val * 1536 + r.val < 64512 := by have := r.isLt; omega
  rw [← Cols.col_v34 m c ⟨t.val * 1536 + r.val, hR⟩ l]
  show iblk m c 6 t (ix2 r l) = _
  unfold iblk
  rw [View.read_apply]
  show V m c main_v34 _ = V m c main_v34 _
  congr 1
  funext a
  apply Fin.ext
  match a with
  | ⟨0, _⟩ =>
    show win0_6.index t 0 * 1536 + 1 * r.val = t.val * 1536 + r.val
    rw [(idx_facts6 t).1]; omega
  | ⟨1, _⟩ =>
    show win0_6.index t 1 * 128 + 1 * l.val = l.val
    rw [(idx_facts6 t).2]; omega

/-- Window 7's block at point t. -/
abbrev xblk7 (c : Dev nD) (t : Fin cfg0.N) : Vec Ideal S1536x128 .f32 := iblk m c 7 t

/-- Window 7's index map: block row t, block column 0. -/
theorem idx_facts7 : ∀ t : Fin cfg0.N, win0_7.index t 0 = t.val ∧ win0_7.index t 1 = 0 :=
  (by decide +kernel : ∀ t : Fin grid0.N, win0_7.index t 0 = t.val ∧ win0_7.index t 1 = 0)

/-- Row r, lane l of window 7's block at point t: column 3 of the second array of boxes at place (t * 1536 + r) * 128 + l. -/
theorem xblk7_apply (c : Dev nD) (t : Fin cfg0.N) (r : Fin 1536) (l : Fin 128) :
    xblk7 m c t (ix2 r l)
      = colPad (m ((c : Thread nD τ).loc main_arg1)) 3 oneE ((t.val * 1536 + r.val) * 128 + l.val) := by
  have hN : t.val < 42 := lt_of_lt_of_eq t.isLt (show cfg0.N = 42 from N_0)
  have hR : t.val * 1536 + r.val < 64512 := by have := r.isLt; omega
  rw [← Cols.col_v39 m c ⟨t.val * 1536 + r.val, hR⟩ l]
  show iblk m c 7 t (ix2 r l) = _
  unfold iblk
  rw [View.read_apply]
  show V m c main_v39 _ = V m c main_v39 _
  congr 1
  funext a
  apply Fin.ext
  match a with
  | ⟨0, _⟩ =>
    show win0_7.index t 0 * 1536 + 1 * r.val = t.val * 1536 + r.val
    rw [(idx_facts7 t).1]; omega
  | ⟨1, _⟩ =>
    show win0_7.index t 1 * 128 + 1 * l.val = l.val
    rw [(idx_facts7 t).2]; omega

end Cert.Giou.Blocks

end
-- ==== Proof.Acc.lean ====
/-
  The running sum in the cell.

  After point n the cell holds zero plus the sum of the block sums of the points of n's half up to n (the half starts
  at n - n % 21), and every other entry of the output block holds zero: by induction on the point, the first point of a
  half resetting and every other point adding its block sum to what the point before left.
-/
import proofs.«427724_j3788161155127_3_alg».proof.Proof.Payload
import proofs.«427724_j3788161155127_3_alg».proof.Proof.Blocks

open scoped BigOperators

noncomputable section

namespace Cert.Giou.Acc

open Cert.KernelIdeal Cert.KernelIdeal.Gen Idealize.ShloMosaic Idealize.ShloMosaic.TcCoe Idealize.SL.Sem
open Idealize.ShloMosaic.ValueIdx Cert.Giou Cert.Giou.Pieces Cert.Giou.Payload Cert.Giou.Blocks

variable (m : (ℓ : Loc nD τ sig) → Buf (Elt Ideal) ℓ)

/-- The sum of the losses of the 1536 x 128 boxes of point t's blocks. -/
def blockSum (c : Dev nD) (t : Fin cfg0.N) : EReal :=
  ∑ r : Fin 1536, ∑ l : Fin 128, loss8 (xblk0 m c t (ix2 r l)) (xblk1 m c t (ix2 r l)) (xblk2 m c t (ix2 r l)) (xblk3 m c t (ix2 r l)) (xblk4 m c t (ix2 r l)) (xblk5 m c t (ix2 r l)) (xblk6 m c t (ix2 r l)) (xblk7 m c t (ix2 r l))

/-- The same for every natural number: zero past the grid. -/
def bs (c : Dev nD) (k : ℕ) : EReal := if h : k < cfg0.N then blockSum m c ⟨k, h⟩ else 0

theorem bs_lt (c : Dev nD) (k : ℕ) (h : k < cfg0.N) : bs m c k = blockSum m c ⟨k, h⟩ := dif_pos h

/-- The block sum of point t is the sum of the losses at the places of its rows and lanes. -/
theorem blockSum_eq (c : Dev nD) (t : Fin cfg0.N) :
    blockSum m c t = ∑ r : Fin 1536, ∑ l : Fin 128,
      lossAt (m ((c : Thread nD τ).loc main_arg0)) (m ((c : Thread nD τ).loc main_arg1)) ((t.val * 1536 + r.val) * 128 + l.val) := by
  unfold blockSum lossAt
  refine Finset.sum_congr rfl fun r _ => Finset.sum_congr rfl fun l _ => ?_
  rw [xblk0_apply, xblk1_apply, xblk2_apply, xblk3_apply, xblk4_apply, xblk5_apply, xblk6_apply, xblk7_apply]

/-- The cell after the first point of a half: zero plus the point's block sum. -/
theorem cellA (c : Dev nD) (t : Fin cfg0.N) (h0 : t.val % 21 = 0) :
    out0_A_8 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) ((hcond0_0 t).mpr h0) (iblk m c 0 t) (iblk m c 1 t) (iblk m c 2 t) (iblk m c 3 t) (iblk m c 4 t) (iblk m c 5 t) (iblk m c 6 t) (iblk m c 7 t) cell = zeroE + blockSum m c t := by
  refine (out_A_cell c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) ((hcond0_0 t).mpr h0) (xblk0 m c t) (xblk1 m c t) (xblk2 m c t) (xblk3 m c t) (xblk4 m c t) (xblk5 m c t) (xblk6 m c t) (xblk7 m c t)).trans ?_
  unfold blockSum
  exact newCell_apply (xblk0 m c t) (xblk1 m c t) (xblk2 m c t) (xblk3 m c t) (xblk4 m c t) (xblk5 m c t) (xblk6 m c t) (xblk7 m c t) (fun _ => (zeroF (F := Ideal)))

/-- Every other entry after the first point of a half: zero. -/
theorem restA (c : Dev nD) (t : Fin cfg0.N) (h0 : t.val % 21 = 0) (y : S1x8x128.Idx) (hy : y ≠ cell) :
    out0_A_8 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) ((hcond0_0 t).mpr h0) (iblk m c 0 t) (iblk m c 1 t) (iblk m c 2 t) (iblk m c 3 t) (iblk m c 4 t) (iblk m c 5 t) (iblk m c 6 t) (iblk m c 7 t) y = zeroE :=
  out_A_rest c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) ((hcond0_0 t).mpr h0) (xblk0 m c t) (xblk1 m c t) (xblk2 m c t) (xblk3 m c t) (xblk4 m c t) (xblk5 m c t) (xblk6 m c t) (xblk7 m c t) y hy

/-- The cell after a later point: what the point before left there plus the point's block sum. -/
theorem cellB (c : Dev nD) (t : Fin cfg0.N) (h0 : ¬t.val % 21 = 0) (xo8 : Vec Ideal S1x8x128 .f32) :
    out0_B_8 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (fun h => h0 ((hcond0_0 t).mp h)) (iblk m c 0 t) (iblk m c 1 t) (iblk m c 2 t) (iblk m c 3 t) (iblk m c 4 t) (iblk m c 5 t) (iblk m c 6 t) (iblk m c 7 t) xo8 cell = xo8 cell + blockSum m c t := by
  refine (out_B_cell c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (fun h => h0 ((hcond0_0 t).mp h)) (xblk0 m c t) (xblk1 m c t) (xblk2 m c t) (xblk3 m c t) (xblk4 m c t) (xblk5 m c t) (xblk6 m c t) (xblk7 m c t) xo8).trans ?_
  unfold blockSum
  exact newCell_apply (xblk0 m c t) (xblk1 m c t) (xblk2 m c t) (xblk3 m c t) (xblk4 m c t) (xblk5 m c t) (xblk6 m c t) (xblk7 m c t) (fun _ => xo8 cell)

/-- Every other entry after a later point: as the point before left it. -/
theorem restB (c : Dev nD) (t : Fin cfg0.N) (h0 : ¬t.val % 21 = 0) (xo8 : Vec Ideal S1x8x128 .f32) (y : S1x8x128.Idx) (hy : y ≠ cell) :
    out0_B_8 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (fun h => h0 ((hcond0_0 t).mp h)) (iblk m c 0 t) (iblk m c 1 t) (iblk m c 2 t) (iblk m c 3 t) (iblk m c 4 t) (iblk m c 5 t) (iblk m c 6 t) (iblk m c 7 t) xo8 y = xo8 y :=
  out_B_rest c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (fun h => h0 ((hcond0_0 t).mp h)) (xblk0 m c t) (xblk1 m c t) (xblk2 m c t) (xblk3 m c t) (xblk4 m c t) (xblk5 m c t) (xblk6 m c t) (xblk7 m c t) xo8 y hy

/-- One more term of the running sum (the point n + 1 is not the first of its half). -/
theorem range_step (f : ℕ → EReal) (n : ℕ) (h0 : ¬(n + 1) % 21 = 0) :
    (zeroE + ∑ s ∈ Finset.range (n % 21 + 1), f (n - n % 21 + s)) + f (n + 1)
      = zeroE + ∑ s ∈ Finset.range ((n + 1) % 21 + 1), f (n + 1 - (n + 1) % 21 + s) := by
  have h1 : (n + 1) % 21 = n % 21 + 1 := by omega
  have h2 : n + 1 - (n + 1) % 21 = n - n % 21 := by omega
  have h3 : n - n % 21 + (n % 21 + 1) = n + 1 := by omega
  rw [h2, h1, Finset.sum_range_succ _ (n % 21 + 1), h3, add_assoc]

/-- The running sum at the first point of a half is that point's term alone. -/
theorem range_reset (f : ℕ → EReal) (n : ℕ) (h0 : n % 21 = 0) :
    zeroE + f n = zeroE + ∑ s ∈ Finset.range (n % 21 + 1), f (n - n % 21 + s) := by
  rw [h0, Finset.sum_range_one, Nat.sub_zero, Nat.add_zero]

/-- THE CELL after point n: zero plus the block sums of the points of n's half up to n. -/
theorem cell_eq (c : Dev nD) : ∀ (n : ℕ) (h : n < cfg0.N),
    outsAt0 m c n h cell = zeroE + ∑ s ∈ Finset.range (n % 21 + 1), bs m c (n - n % 21 + s)
  | 0, h => by
    refine (congrFun (outsAt0_A m c ⟨0, h⟩ rfl) cell).trans ?_
    rw [cellA m c ⟨0, h⟩ rfl, ← bs_lt m c 0 h]
    exact range_reset (bs m c) 0 rfl
  | n + 1, h => by
    by_cases h0 : (n + 1) % 21 = 0
    · refine (congrFun (outsAt0_A m c ⟨n + 1, h⟩ h0) cell).trans ?_
      rw [cellA m c ⟨n + 1, h⟩ h0, ← bs_lt m c (n + 1) h]
      exact range_reset (bs m c) (n + 1) h0
    · refine (congrFun (outsAt0_B m c ⟨n + 1, h⟩ h0) cell).trans ?_
      rw [cellB m c ⟨n + 1, h⟩ h0]
      show outsAt0 m c n _ cell + _ = _
      rw [cell_eq c n (Nat.lt_of_succ_lt h), ← bs_lt m c (n + 1) h]
      exact range_step (bs m c) n h0

/-- EVERY OTHER ENTRY of the output block after point n: zero. -/
theorem rest_eq (c : Dev nD) : ∀ (n : ℕ) (h : n < cfg0.N) (y : S1x8x128.Idx), y ≠ cell → outsAt0 m c n h y = zeroE
  | 0, h, y, hy => (congrFun (outsAt0_A m c ⟨0, h⟩ rfl) y).trans (restA m c ⟨0, h⟩ rfl y hy)
  | n + 1, h, y, hy => by
    by_cases h0 : (n + 1) % 21 = 0
    · exact (congrFun (outsAt0_A m c ⟨n + 1, h⟩ h0) y).trans (restA m c ⟨n + 1, h⟩ h0 y hy)
    · refine (congrFun (outsAt0_B m c ⟨n + 1, h⟩ h0) y).trans ?_
      rw [restB m c ⟨n + 1, h⟩ h0 _ y hy]
      exact rest_eq c n (Nat.lt_of_succ_lt h) y hy

end Cert.Giou.Acc

end
-- ==== Proof.Final.lean ====
/-
  The kernel's result.

  The output array is 2 x 8 x 128: half k's block is written back once, after the last point of the half, holding in
  its cell (k, 0, 0) zero plus the 21 block sums of the half and zero everywhere else. After the kernel the program adds
  the two cells and divides by the number of boxes. The two half sums together are the sum over every lane of every row
  of every block, which is the sum over the boxes: the kernel returns the mean loss.
-/
import proofs.«427724_j3788161155127_3_alg».proof.Proof.Acc
import Idealize.ShloMosaic.Lib.StableHlo.Run

open scoped BigOperators

noncomputable section

namespace Cert.Giou.Final

open Cert.KernelIdeal Cert.KernelIdeal.Gen Idealize.ShloMosaic Idealize.ShloMosaic.TcCoe Idealize.SL.Sem
open Idealize.ShloMosaic.ValueIdx
open Idealize.ShloMosaic.Pipeline (Dat)
open Cert.Giou Cert.Giou.Pieces Cert.Giou.Blocks Cert.Giou.Acc

variable (m : (ℓ : Loc nD τ sig) → Buf (Elt Ideal) ℓ) (ρ : Dev nD → PrngReg)

/-- Zero plus the 21 block sums of half k. -/
def halfSum (c : Dev nD) (k : ℕ) : EReal := zeroE + ∑ s ∈ Finset.range 21, bs m c (21 * k + s)

/-- What the output array ends holding: the half sums in the cells (k, 0, 0), zero elsewhere. -/
def G (c : Dev nD) : S2x8x128.Idx → EReal :=
  fun j => if (j 1).val = 0 ∧ (j 2).val = 0 then halfSum m c (j 0).val else zeroE

/-- The output window's index map: the half, then 0, 0. -/
theorem idx_facts8 : ∀ t : Fin cfg0.N, win0_8.index t 0 = t.val / 21 ∧ win0_8.index t 1 = 0 ∧ win0_8.index t 2 = 0 :=
  (by decide +kernel : ∀ t : Fin grid0.N, win0_8.index t 0 = t.val / 21 ∧ win0_8.index t 1 = 0 ∧ win0_8.index t 2 = 0)

/-- WHAT A WRITE-BACK WRITES: at the last point of a half, that half's block of the result. -/
theorem flushed_eq (c : Dev nD) (t : Fin cfg0.N) (hf : (cfg0.win 8).flush t = true) :
    (dats m 0 c).flushed 8 t = ((cfg0.win 8).blk t).view.read (Elt Ideal) (G m c) := by
  have hN : t.val < 42 := lt_of_lt_of_eq t.isLt (show cfg0.N = 42 from N_0)
  have h20 : t.val % 21 = 20 := (flush0_8 t).mp hf
  obtain ⟨e0, e1, e2⟩ := idx_facts8 t
  show (cfg0.win 8).cut (grid0.coords t) ((dats m 0 c).after 8 t) = _
  rw [after0_8]
  funext y
  rw [View.read_apply]
  show outsAt0 m c t.val t.isLt y = G m c (((cfg0.win 8).blk t).view.emb y)
  have hv0 : ((((cfg0.win 8).blk t).view.emb y) 0).val = win0_8.index t 0 * 1 + 1 * (y 0).val := rfl
  have hv1 : ((((cfg0.win 8).blk t).view.emb y) 1).val = win0_8.index t 1 * 8 + 1 * (y 1).val := rfl
  have hv2 : ((((cfg0.win 8).blk t).view.emb y) 2).val = win0_8.index t 2 * 128 + 1 * (y 2).val := rfl
  have hy0 : (y 0).val < 1 := (y 0).isLt
  unfold G
  by_cases hy : y = cell
  · have c1 : (y 1).val = 0 := by rw [hy]; rfl
    have c2 : (y 2).val = 0 := by rw [hy]; rfl
    rw [if_pos ⟨by rw [hv1, e1, c1], by rw [hv2, e2, c2]⟩, hy, cell_eq m c t.val t.isLt, h20]
    unfold halfSum
    refine congrArg (zeroE + ·) (Finset.sum_congr rfl fun s _ => congrArg (bs m c) ?_)
    rw [← hy, hv0, e0]
    omega
  · rw [rest_eq m c t.val t.isLt y hy, if_neg]
    rintro ⟨h1, h2⟩
    rw [hv1, e1] at h1
    rw [hv2, e2] at h2
    rcases off_cell y hy with h | h <;> omega

/-- An index of the array is in point t's block iff each coordinate is in the block's range on its axis. -/
theorem mem_blk8 (t : Fin cfg0.N) (i : S2x8x128.Idx) :
    i ∈ ((cfg0.win 8).blk t).view.set ↔ ∀ a : Fin 3, win0_8.index t a * S1x8x128.size a ≤ (i a).val
      ∧ (i a).val < win0_8.index t a * S1x8x128.size a + S1x8x128.size a := by
  show i ∈ ((View.whole main_v40).slice (win0_8.rect t)).set ↔ _
  rw [View.set_slice_whole, Rect.mem_set_unit]
  exact Iff.rfl

/-- THE ARRAY after the kernel: the two write-backs cover it. -/
theorem final (c : Dev nD) : (dats m 0 c).arrAt 8 cfg0.N = G m c :=
  (dats m 0 c).arrAt_eq_of_cover 8 (G m c) (flushed_eq m c) fun i => by
    have hi0 : (i 0).val < 2 := (i 0).isLt
    have hi1 : (i 1).val < 8 := (i 1).isLt
    have hi2 : (i 2).val < 128 := (i 2).isLt
    have hN : cfg0.N = 42 := N_0
    have ht : 21 * (i 0).val + 20 < cfg0.N := by rw [hN]; omega
    obtain ⟨e0, e1, e2⟩ := idx_facts8 ⟨21 * (i 0).val + 20, ht⟩
    refine ⟨⟨21 * (i 0).val + 20, ht⟩, (flush0_8 _).mpr (by show (21 * (i 0).val + 20) % 21 = 20; omega), ?_⟩
    rw [mem_blk8]
    intro a
    match a with
    | ⟨0, _⟩ =>
      show win0_8.index ⟨21 * (i 0).val + 20, ht⟩ 0 * 1 ≤ (i 0).val ∧ (i 0).val < win0_8.index ⟨21 * (i 0).val + 20, ht⟩ 0 * 1 + 1
      rw [e0]; show (21 * (i 0).val + 20) / 21 * 1 ≤ (i 0).val ∧ (i 0).val < (21 * (i 0).val + 20) / 21 * 1 + 1; omega
    | ⟨1, _⟩ =>
      show win0_8.index ⟨21 * (i 0).val + 20, ht⟩ 1 * 8 ≤ (i 1).val ∧ (i 1).val < win0_8.index ⟨21 * (i 0).val + 20, ht⟩ 1 * 8 + 8
      rw [e1]; omega
    | ⟨2, _⟩ =>
      show win0_8.index ⟨21 * (i 0).val + 20, ht⟩ 2 * 128 ≤ (i 2).val ∧ (i 2).val < win0_8.index ⟨21 * (i 0).val + 20, ht⟩ 2 * 128 + 128
      rw [e2]; omega

/-- The cell (k, 0, 0) of the result, cut out as a 1 x 1 x 1 array and reshaped to a scalar, is half k's sum. -/
theorem cell_read (c : Dev nD) (k : Fin 2) (off : Fin 3 → ℕ) (hoff : off = ![k.val, 0, 0]) (h : S2x8x128.Slices off S1x1x1)
    (i : S_.Idx) :
    shapeCast S_ (extractStridedSlice S1x1x1 off (G m c) h) shapeCasts_S1x1x1_S_ i = halfSum m c k.val := by
  subst hoff
  refine (shapeCast_apply _ shapeCasts_S1x1x1_S_ i (ix3 0 0 0) ?_).trans ?_
  · rw [Shape.rowMajor_val_three]
    have h1 : (S_.rowMajor i).val < 1 := (S_.rowMajor i).isLt
    show (0 * 1 + 0) * 1 + 0 = _
    omega
  refine (extractStridedSlice_apply ![k.val, 0, 0] (G m c) h (ix3 0 0 0) (ix3 k 0 0) ?_).trans ?_
  · intro a
    match a with
    | ⟨0, _⟩ => show k.val = k.val + 0; omega
    | ⟨1, _⟩ => rfl
    | ⟨2, _⟩ => rfl
  unfold G
  exact if_pos ⟨rfl, rfl⟩

/-- AFTER THE KERNEL: the two cells added and divided by the number of boxes. -/
theorem tail_eq (c : Dev nD) :
    Pipeline.afterTail₀ cfgs (dats m) 0 (V0 m) [hostOps1] c main_v46
      = fun _ => Ideal.div (halfSum m c 0 + halfSum m c 1) countE := by
  unfold Pipeline.afterTail₀
  show StableHlo.after hostOps1 _ (Proc.devRef .tc main_v46) = _
  after_results
  have hA : Pipeline.withArrays (cfgs 0).spec c (V0 m c) (fun w => (dats m 0 c).arrAt w (cfgs 0).N) (Proc.devRef .tc main_v40)
      = G m c := (Pipeline.withArrays_arr spec0 launch0.win.arr_inj c _ _ 8).trans (final m c)
  rw [hA]
  funext i
  show Ideal.div (shapeCast S_ (extractStridedSlice S1x1x1 ![0, 0, 0] (G m c) slices_S2x8x128_S1x1x1_0_0_0) shapeCasts_S1x1x1_S_ i
    + shapeCast S_ (extractStridedSlice S1x1x1 ![1, 0, 0] (G m c) slices_S2x8x128_S1x1x1_1_0_0) shapeCasts_S1x1x1_S_ i) countE = _
  rw [cell_read m c 0 ![0, 0, 0] rfl slices_S2x8x128_S1x1x1_0_0_0 i, cell_read m c 1 ![1, 0, 0] rfl slices_S2x8x128_S1x1x1_1_0_0 i]
  rfl

/-- One half's sum, without its zero, is the sum over the places of its points, rows and lanes. -/
theorem half_eq (c : Dev nD) (k : Fin 2) :
    ∑ s ∈ Finset.range 21, bs m c (21 * k.val + s)
      = ∑ i : Fin 21, ∑ r : Fin 1536, ∑ l : Fin 128,
          lossAt (m ((c : Thread nD τ).loc main_arg0)) (m ((c : Thread nD τ).loc main_arg1)) (((k.val * 21 + i.val) * 1536 + r.val) * 128 + l.val) := by
  rw [Finset.sum_range]
  refine Finset.sum_congr rfl fun i _ => ?_
  have hk : k.val < 2 := k.isLt
  have hi : 21 * k.val + i.val < cfg0.N := by rw [show cfg0.N = 42 from N_0]; have := i.isLt; omega
  rw [bs_lt m c _ hi, blockSum_eq]
  refine Finset.sum_congr rfl fun r _ => Finset.sum_congr rfl fun l _ => congrArg _ ?_
  show ((21 * k.val + i.val) * 1536 + r.val) * 128 + l.val = ((k.val * 21 + i.val) * 1536 + r.val) * 128 + l.val
  ring

/-- THE TWO HALF SUMS TOGETHER are the sum of the losses of all the boxes. -/
theorem halves_eq (c : Dev nD) :
    halfSum m c 0 + halfSum m c 1 = ∑ n : Fin nBox, lossBox (m ((c : Thread nD τ).loc main_arg0)) (m ((c : Thread nD τ).loc main_arg1)) n := by
  rw [← sum_regroup, Fin.sum_univ_two]
  unfold halfSum
  rw [zeroE_eq, zero_add, zero_add]
  exact congrArg₂ (· + ·) (half_eq m c 0) (half_eq m c 1)

/-- THE KERNEL'S RUN: every execution ends with the result at the mean loss and the arguments unchanged. -/
theorem run : θ_run defs (onTc (τ := τ) (main (F := Ideal))) ⟨m, fun _ => 0, ρ⟩ fun r => ∀ c : Dev nD,
      r.2.mem ((c : Thread nD τ).loc main_v46) = (fun _ => meanLoss (m ((c : Thread nD τ).loc main_arg0)) (m ((c : Thread nD τ).loc main_arg1)))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun _ h c =>
    ⟨(((h c).2 main_v46 (Pipeline.mem_restRefs_of main_v46 (by decide) (by decide))).trans (tail_eq m c)).trans
        (by unfold meanLoss; rw [halves_eq]),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c)⟩)
    (run_main m ρ)

end Cert.Giou.Final

end
-- ==== Proof.lean ====
/-
  The generalized-IoU loss of eight million pairs of boxes, averaged: the kernel against its reference.

  Both programs repair each box (every coordinate clamped below at zero when its corners are out of order), form the two
  areas, the intersection and the union, the enclosing box's area, the generalized quotient, and the loss one minus it
  clamped below at zero; then they average the losses. The reference sums the eight million losses from zero and divides
  by their number. The kernel lays each coordinate out as a long column continued by unit-square coordinates, cuts the
  columns into 2 x 21 blocks of 1536 rows of 128 lanes, sums each block's losses into one cell per half, and afterwards
  adds the two cells and divides by the same number. A continued place is the unit square against itself and loses
  nothing, and addition of extended reals may be regrouped freely, so the two results are the same extended real for
  every pair of arrays, finite or not.

  The modules: Spec (the loss of one pair of boxes as one function; the sum regrouped), RefLoss (the reference read down
  to that function), Cols and Blocks (what the kernel's windows read), Pieces and Payload (what one grid point stores),
  Acc (the running sum, by induction on the point), Final (the result array, the lines after the kernel, the run).
-/
import proofs.«427724_j3788161155127_3_alg».proof.Defs
import proofs.«427724_j3788161155127_3_alg».proof.Proof.Gen.Kernel
import proofs.«427724_j3788161155127_3_alg».proof.Proof.Gen.Kernel.Skeleton
import proofs.«427724_j3788161155127_3_alg».proof.Proof.Gen.Kernel.Launch
import proofs.«427724_j3788161155127_3_alg».proof.Proof.Gen.Kernel.Points
import proofs.«427724_j3788161155127_3_alg».proof.Proof.Gen.Kernel.Frame
import proofs.«427724_j3788161155127_3_alg».proof.Proof.Gen.KernelIdeal
import proofs.«427724_j3788161155127_3_alg».proof.Proof.Gen.KernelIdeal.Skeleton
import proofs.«427724_j3788161155127_3_alg».proof.Proof.Gen.KernelIdeal.Launch
import proofs.«427724_j3788161155127_3_alg».proof.Proof.Gen.KernelIdeal.Points
import proofs.«427724_j3788161155127_3_alg».proof.Proof.Gen.KernelIdeal.Frame
import proofs.«427724_j3788161155127_3_alg».proof.Proof.Gen.ReferenceIdeal
import proofs.«427724_j3788161155127_3_alg».proof.Proof.Gen.ReferenceIdeal.Run
import proofs.«427724_j3788161155127_3_alg».proof.Proof.Gen.ReferenceIdeal.Read
import proofs.«427724_j3788161155127_3_alg».proof.Proof.Gen.Pre_finite_inputs
import proofs.«427724_j3788161155127_3_alg».proof.Proof.RefLoss
import proofs.«427724_j3788161155127_3_alg».proof.Proof.Final
import Idealize.ShloMosaic.Adequacy
import Idealize.ShloMosaic.Init

noncomputable section

namespace Cert.Proof

open Idealize.ShloMosaic Idealize.ShloMosaic.TcCoe Idealize.SL.Sem

/-- The kernel as printed runs to the end and leaves its arguments alone. -/
theorem frame_k : Cert.frame_Kernel := fun m ρ _ => Cert.Kernel.Gen.frame m ρ

/-- So does its reading over the extended reals. -/
theorem frame_ki : Cert.frame_KernelIdeal := fun m ρ _ => Cert.KernelIdeal.Gen.frame m ρ

/-- So does the reference: its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- Nothing was rewritten between the kernel and its reading over the extended reals. -/
theorem preserves : Cert.preserves_Kernel_KernelIdeal := trivial

/-- From arrays that agree, the kernel and the reference both end at the mean loss of the pairs of boxes. -/
theorem algebraic : Cert.algebraic_KernelIdeal_ReferenceIdeal := by
  intro m ρ m' ρ' _ hagree
  refine ⟨fun c => fun _ => Cert.Giou.meanLoss
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1)),
    Cert.Giou.Final.run m ρ, ?_⟩
  refine (θ_run Cert.ReferenceIdeal.defs _ _).mono (fun _ h c => ⟨?_, (h c).2⟩)
    (Cert.ReferenceIdeal.Value.run (F := Ideal) m' ρ')
  rw [(h c).1, Cert.ReferenceIdeal.Read.val_main_v86_eq, Cert.Giou.Ref.mean_eq, (hagree c).1, (hagree c).2]
  rfl

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
